-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S64x2048x256 .f32) (main_arg1 : FVec F S64x256 .f32) (main_arg2 : FVec F S256x256 .f32) (main_arg3 : FVec F S256 .f32) (main_arg4 : FVec F S256x256 .f32) (main_arg5 : FVec F S256 .f32) (main_arg6 : FVec F S1x256 .f32) (main_arg7 : FVec F S1 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S64x2048x256 : Shape := ⟨3, ![64, 2048, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x1 : Shape := ⟨2, ![256, 1]⟩
abbrev S64x2048 : Shape := ⟨2, ![64, 2048]⟩
abbrev S8x2048x256 : Shape := ⟨3, ![8, 2048, 256]⟩
abbrev S8x256 : Shape := ⟨2, ![8, 256]⟩
abbrev S8x2048 : Shape := ⟨2, ![8, 2048]⟩
abbrev S1x1x256 : Shape := ⟨3, ![1, 1, 256]⟩
abbrev S8x1x256 : Shape := ⟨3, ![8, 1, 256]⟩
abbrev S8x256x256 : Shape := ⟨3, ![8, 256, 256]⟩
abbrev S2048x256 : Shape := ⟨2, ![2048, 256]⟩
abbrev S2048x1 : Shape := ⟨2, ![2048, 1]⟩
abbrev S8 : Shape := ⟨1, ![8]⟩
abbrev S8x1 : Shape := ⟨2, ![8, 1]⟩
abbrev S64x2048x1 : Shape := ⟨3, ![64, 2048, 1]⟩

abbrev nBuf : Space → Nat
  | .hbm => 17
  | .vmem => 16
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x1, .f32⟩
  | .hbm, ⟨13, _⟩ => ⟨S256x1, .bf16⟩
  | .hbm, ⟨14, _⟩ => ⟨S64x256, .f32⟩
  | .hbm, ⟨15, _⟩ => ⟨S64x2048, .f32⟩
  | .hbm, ⟨16, _⟩ => ⟨S64x2048x1, .f32⟩
  | .local _ .vmem, ⟨0, _⟩ => ⟨S8x2048x256, .f32⟩
  | .local _ .vmem, ⟨1, _⟩ => ⟨S8x2048x256, .f32⟩
  | .local _ .vmem, ⟨2, _⟩ => ⟨S8x256, .f32⟩
  | .local _ .vmem, ⟨3, _⟩ => ⟨S8x256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x1, .bf16⟩
  | .local _ .vmem, ⟨9, _⟩ => ⟨S1, .f32⟩
  | .local _ .vmem, ⟨10, _⟩ => ⟨S8x256, .f32⟩
  | .local _ .vmem, ⟨11, _⟩ => ⟨S8x256, .f32⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | .local _ .vmem, ⟨15, _⟩ => ⟨S8x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32_29 : BitVec 32 := 0#32
  let c0_i32 : BitVec 32 := 0#32
  let c1_i32 : BitVec 32 := 1#32
  let arg13 : BitVec 32 := Scf.iv c0_i32 c1_i32 k0_t1
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  v41
def k0_off1 (k0_t1 : Fin k0_t1_loop.trips) : Fin 3 → Nat :=
  let c0_30 : Index := 0#32
  let c0_i32_29 : BitVec 32 := 0#32
  let c0_i32 : BitVec 32 := 0#32
  let c1_i32 : BitVec 32 := 1#32
  let arg13 : BitVec 32 := Scf.iv c0_i32 c1_i32 k0_t1
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  let v42 : BitVec 32 := v41
  let v43 : Index := Scalar.indexCast v42
  let c0_31 : Index := 0#32
  ![0, v43.toNat, 0]
def k0_off2 (k0_t1 : Fin k0_t1_loop.trips) : Fin 2 → Nat :=
  let c0_34 : Index := 0#32
  let c0_i32_29 : BitVec 32 := 0#32
  let c0_i32 : BitVec 32 := 0#32
  let c1_i32 : BitVec 32 := 1#32
  let arg13 : BitVec 32 := Scf.iv c0_i32 c1_i32 k0_t1
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  let v42 : BitVec 32 := v41
  let v58 : Index := Scalar.indexCast v42
  ![0, v58.toNat]
@[reducible] def k0_t2_loop : Scf.Loop 32 :=
  let c0_i32_20 : BitVec 32 := 0#32
  let c8_i32_21 : BitVec 32 := 8#32
  let v36 : BitVec 32 := Scalar.addi c0_i32_20 c8_i32_21
  let c1_i32_22 : BitVec 32 := 1#32
  ⟨c0_i32_20, v36, c1_i32_22⟩
def k0_mult2 (k0_t2 : Fin k0_t2_loop.trips) : BitVec 32 :=
  let c0_i32_29 : BitVec 32 := 0#32
  let c0_i32_20 : BitVec 32 := 0#32
  let c1_i32_22 : BitVec 32 := 1#32
  let arg13 : BitVec 32 := Scf.iv c0_i32_20 c1_i32_22 k0_t2
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  v41
def k0_off3 (k0_t2 : Fin k0_t2_loop.trips) : Fin 3 → Nat :=
  let c0_30 : Index := 0#32
  let c0_i32_29 : BitVec 32 := 0#32
  let c0_i32_20 : BitVec 32 := 0#32
  let c1_i32_22 : BitVec 32 := 1#32
  let arg13 : BitVec 32 := Scf.iv c0_i32_20 c1_i32_22 k0_t2
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  let v42 : BitVec 32 := v41
  let v43 : Index := Scalar.indexCast v42
  let c0_31 : Index := 0#32
  ![0, v43.toNat, 0]
def k0_off4 (k0_t2 : Fin k0_t2_loop.trips) : Fin 2 → Nat :=
  let c0_32 : Index := 0#32
  let c0_i32_29 : BitVec 32 := 0#32
  let c0_i32_20 : BitVec 32 := 0#32
  let c1_i32_22 : BitVec 32 := 1#32
  let arg13 : BitVec 32 := Scf.iv c0_i32_20 c1_i32_22 k0_t2
  let c1_i32_28 : BitVec 32 := 1#32
  let v39 : BitVec 32 := Scalar.muli arg13 c1_i32_28
  let v40 : BitVec 32 := Scalar.addi c0_i32_29 v39
  let c256_i32 : BitVec 32 := 256#32
  let v41 : BitVec 32 := Scalar.muli v40 c256_i32
  let v42 : BitVec 32 := v41
  let v46 : Index := Scalar.indexCast v42
  ![0, v46.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x256_S256x256_1_0 : S256x256.Transposes [1, 0] S256x256
  bitsLt_bf16_f32 : FTy.bits .bf16 < FTy.bits .f32
  transposes_S1x256_S256x1_1_0 : S1x256.Transposes [1, 0] S256x1
  inb_S8x256_S8x256_0_0 : ∀ a, (![0, 0] : Fin 2 → Nat) a + S8x256.size a ≤ S8x256.size a
  h_S8x256 : 0 < S8x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S8x256 : S1x256.Broadcasts S8x256
  shapeCasts_S256_S1x1x256 : S256.ShapeCasts S1x1x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  inpos_S1_p0 : ∀ a, (![0] : Fin 1 → Nat) a < S1.size a
  shapeCasts_S8x256_S8x1x256 : S8x256.ShapeCasts S8x1x256
  broadcasts_S1x1x256_S8x1x256 : S1x1x256.Broadcasts S8x1x256
  h_S8x256x256 : 0 < S8x256x256.numel
  shapeCasts_S8x256x256_S2048x256 : S8x256x256.ShapeCasts S2048x256
  shapeCasts_S2048x256_S8x256x256 : S2048x256.ShapeCasts S8x256x256
  broadcasts_S8x1x256_S8x256x256 : S8x1x256.Broadcasts S8x256x256
  shapeCasts_S2048x1_S8x256 : S2048x1.ShapeCasts S8x256
  shapeCasts_S8x256_S8x256 : S8x256.ShapeCasts S8x256
  inb_S8x2048_S8x2048_0_0 : ∀ a, (![0, 0] : Fin 2 → Nat) a + S8x2048.size a ≤ S8x2048.size a
  h_S8x2048 : 0 < S8x2048.numel
  reduces_S8x2048_S8 : S8x2048.Reduces [1] S8
  shapeCasts_S8_S8x1 : S8.ShapeCasts S8x1
  broadcasts_S8x1_S8x2048 : S8x1.Broadcasts S8x2048
  shapeCasts_S8x1x256_S8x256 : S8x1x256.ShapeCasts S8x256
  bcast_S64x2048_S64x2048x1_0_1 : S64x2048.BroadcastsInDim S64x2048x1 (![0, 1] : Fin 2 → Fin S64x2048x1.rank)
  dot_S8x256_S256x256_S8x256_1_0_0_1_n_n_wf : DotDims.WF S8x256 S256x256 S8x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  dot_S8x1x256_S8x256x256_S8x1x256_2_1_1_2_0_0_wf : DotDims.WF S8x1x256 S8x256x256 S8x1x256 [2] [1] [1] [2] [0] [0]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S8x256x256.size a ≤ S8x2048x256.size a
  k0_off2_inb : ∀ k0_t1 : Fin k0_t1_loop.trips, ∀ a, (k0_off2 k0_t1) a + S8x256.size a ≤ S8x2048.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S8x256x256.size a ≤ S8x2048x256.size a
  k0_off4_inb : ∀ k0_t2 : Fin k0_t2_loop.trips, ∀ a, (k0_off4 k0_t2) a + S8x256.size a ≤ S8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x256.size a ≤ S64x2048x256.size a
  hwx0_0 : ∀ i : grid0.Coords, EltTy.bits .f32 = 32 ∨ (Rect.block (s := S64x2048x256) S8x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S64x256.size a
  hwx0_8 : ∀ i : grid0.Coords, EltTy.bits .f32 = 32 ∨ (Rect.block (s := S64x256) S8x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x2048.size a ≤ S64x2048.size a
  hwx0_9 : ∀ i : grid0.Coords, EltTy.bits .f32 = 32 ∨ (Rect.block (s := S64x2048) S8x2048.size (cc0_transform_9 i) (hinb0_9 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S8x1x256_S8x256x256_S8x1x256_2_1_1_2_0_0 : DotDims S8x1x256 S8x256x256 S8x1x256 where
  lhsContracting := [2]
  rhsContracting := [1]
  lhsNonContracting := [1]
  rhsNonContracting := [2]
  lhsBatch := [0]
  rhsBatch := [0]
  wf := dot_S8x1x256_S8x256x256_S8x1x256_2_1_1_2_0_0_wf

abbrev win0_0 : Pipeline.Window sig grid0 :=
  Pipeline.Window.ofSpec (Memref.whole main_arg0) S8x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S8x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S8x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1x256 : Shape := ⟨3, ![1, 1, 256]⟩
abbrev S64x1x256 : Shape := ⟨3, ![64, 1, 256]⟩
abbrev S64x2048x1 : Shape := ⟨3, ![64, 2048, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S64x2048x256, .f32⟩
  | .hbm, ⟨9, _⟩ => ⟨S1x1x256, .f32⟩
  | .hbm, ⟨10, _⟩ => ⟨S64x2048x256, .f32⟩
  | .hbm, ⟨11, _⟩ => ⟨S64x2048x256, .f32⟩
  | .hbm, ⟨12, _⟩ => ⟨S64x256, .f32⟩
  | .hbm, ⟨13, _⟩ => ⟨S1x256, .f32⟩
  | .hbm, ⟨14, _⟩ => ⟨S64x256, .f32⟩
  | .hbm, ⟨15, _⟩ => ⟨S64x256, .f32⟩
  | .hbm, ⟨16, _⟩ => ⟨S64x1x256, .f32⟩
  | .hbm, ⟨17, _⟩ => ⟨S64x2048x256, .f32⟩
  | .hbm, ⟨18, _⟩ => ⟨S64x2048x256, .f32⟩
  | .hbm, ⟨19, _⟩ => ⟨S64x2048x256, .f32⟩
  | .hbm, ⟨20, _⟩ => ⟨S64x2048x1, .f32⟩
  | .hbm, ⟨21, _⟩ => ⟨S1x1x1, .f32⟩
  | .hbm, ⟨22, _⟩ => ⟨S64x2048x1, .f32⟩
  | .hbm, ⟨23, _⟩ => ⟨S64x2048x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x2048x1, .f32⟩
  | .hbm, ⟨31, _⟩ => ⟨S64x2048x1, .f32⟩
  | .hbm, ⟨32, _⟩ => ⟨S64x2048x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x2048x1, .f32⟩
  | .hbm, ⟨37, _⟩ => ⟨S64x2048x1, .f32⟩
  | .hbm, ⟨38, _⟩ => ⟨S64x2048x256, .f32⟩
  | .hbm, ⟨39, _⟩ => ⟨S64x2048x256, .f32⟩
  | .hbm, ⟨40, _⟩ => ⟨S_, .f32⟩
  | .hbm, ⟨41, _⟩ => ⟨S64x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x2048x256_0_1_2 : S1x1x256.BroadcastsInDim S64x2048x256 (![0, 1, 2] : Fin 3 → Fin S64x2048x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x256_0_1_2 : S64x2048x1.BroadcastsInDim S64x2048x256 (![0, 1, 2] : Fin 3 → Fin S64x2048x256.rank)
  reducesTo_S64x2048x256_S64x256_d1 : S64x2048x256.ReducesTo [1] S64x256
  dot_S64x2048x256_S256x256_S64x2048x256_2_1_01_0_n_n_wf : DotDims.WF S64x2048x256 S256x256 S64x2048x256 [2] [1] [0, 1] [0] [] []
  dot_S64x256_S256x256_S64x256_1_1_0_0_n_n_wf : DotDims.WF S64x256 S256x256 S64x256 [1] [1] [0] [0] [] []
  dot_S64x2048x256_S1x256_S64x2048x1_2_1_01_0_n_n_wf : DotDims.WF S64x2048x256 S1x256 S64x2048x1 [2] [1] [0, 1] [0] [] []

variable [Facts₀]

def dot_S64x2048x256_S256x256_S64x2048x256_2_1_01_0_n_n : DotDims S64x2048x256 S256x256 S64x2048x256 where
  lhsContracting := [2]
  rhsContracting := [1]
  lhsNonContracting := [0, 1]
  rhsNonContracting := [0]
  lhsBatch := []
  rhsBatch := []
  wf := dot_S64x2048x256_S256x256_S64x2048x256_2_1_01_0_n_n_wf
def dot_S64x256_S256x256_S64x256_1_1_0_0_n_n : DotDims S64x256 S256x256 S64x256 where
  lhsContracting := [1]
  rhsContracting := [1]
  lhsNonContracting := [0]
  rhsNonContracting := [0]
  lhsBatch := []
  rhsBatch := []
  wf := dot_S64x256_S256x256_S64x256_1_1_0_0_n_n_wf
def dot_S64x2048x256_S1x256_S64x2048x1_2_1_01_0_n_n : DotDims S64x2048x256 S1x256 S64x2048x1 where
  lhsContracting := [2]
  rhsContracting := [1]
  lhsNonContracting := [0, 1]
  rhsNonContracting := [0]
  lhsBatch := []
  rhsBatch := []
  wf := dot_S64x2048x256_S1x256_S64x2048x1_2_1_01_0_n_n_wf

class Facts : Prop extends Facts₀ where

variable [Facts]
-- ==== Proof.WordTripPieces.lean ====
/-
  What one trip of each of the body's two counted loops writes.
  Trip `k` of the first loop stores, into columns [256k, 256k + 256) of the score buffer, the scores of
  the features' rows [256k, 256k + 256); trip `k` of the second loop stores, over the whole context
  accumulator, one accumulation step from the features' and the attention weights' chunk `k` and the
  accumulator's contents as the trip finds them. Each trip writes exactly one piece.
-/
import proofs.«415179_j73091753443736_3_alg».proof.Proof.Gen.Kernel.Loops

set_option maxRecDepth 16384

noncomputable section

namespace Cert.Kernel.LoopValue

open Cert.Kernel Cert.Kernel.Gen
open Idealize.ShloMosaic Idealize.ShloMosaic.TcCoe
open Idealize.SL Idealize.SL.Sem

variable {F : FTy → Type} [FloatOps F]

/-- The one piece of trip `k` of the score loop: the scores of the features' chunk `k`, at the chunk's columns. -/
theorem trip1_pieces (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 k
      = [(⟨Rect.unit (s := S8x2048) (k0_off2 k) S8x256.size (k0_off2_inb k),
          k0_pay3 v0 v2 v5 v9 v11 v13 v15
            (View.readAt (Elt F) arg1.view (Rect.unit (s := S8x2048x256) (k0_off1 k) S8x256x256.size (k0_off1_inb k)).toLoadRect X_arg1)⟩ : View.Piece (Elt F) S8x2048 .f32)] := by
  unfold tripL_k0_t1
  unfold trip_k0_t1
  rfl

/-- The one piece of trip `k` of the context loop: one accumulation step over the whole accumulator. -/
theorem trip2_pieces (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (X_arg1 : BufTy.Contents (Elt F) arg1.view.ty) (X_arg10 : BufTy.Contents (Elt F) arg10.view.ty) (k : Fin k0_t2_loop.trips) (f_arg12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg10 k f_arg12
      = [(⟨Rect.unit (s := S8x256) ![0, 0] S8x256.size inb_S8x256_S8x256_0_0,
          k0_pay2
            (View.readAt (Elt F) arg1.view (Rect.unit (s := S8x2048x256) (k0_off3 k) S8x256x256.size (k0_off3_inb k)).toLoadRect X_arg1)
            (View.readAt (Elt F) arg10.view (Rect.unit (s := S8x2048) (k0_off4 k) S8x256.size (k0_off4_inb k)).toLoadRect X_arg10)
            (View.readAt (Elt F) arg12.view (Rect.unit (s := S8x256) ![0, 0] S8x256.size inb_S8x256_S8x256_0_0).toLoadRect f_arg12)⟩ : View.Piece (Elt F) S8x256 .f32)] := by
  unfold tripL_k0_t2
  unfold trip_k0_t2
  rfl

end Cert.Kernel.LoopValue

end
-- ==== Proof.WordScoreLoop.lean ====
/-
  The score buffer after the first counted loop.
  Trip `k` stores the scores of the features' chunk `k` into columns [256k, 256k + 256) of the [8, 2048]
  score buffer, so after `n` trips every column below 256n holds its chunk's score, whatever the buffer
  held before: by induction on `n`, the newest piece read first. After all eight trips the whole buffer
  is one function of the features block, `scoreOf`, and what lay underneath is gone from the reading.
-/
import proofs.«415179_j73091753443736_3_alg».proof.Proof.WordTripPieces
import Idealize.ShloMosaic.Lib.WritesUnit
import Idealize.ShloMosaic.Lib.ValueIdx
import Idealize.ShloMosaic.Lib.Pipeline.Value

set_option maxRecDepth 16384

noncomputable section

namespace Cert.Kernel.LoopValue

open Cert.Kernel Cert.Kernel.Gen
open Idealize.ShloMosaic Idealize.ShloMosaic.TcCoe Idealize.ShloMosaic.ValueIdx
open Idealize.SL Idealize.SL.Sem

variable {F : FTy → Type} [FloatOps F]

/-- The first loop makes eight trips. -/
theorem trips1_eq : k0_t1_loop.trips = 8 := by decide +kernel

/-- The zero offsets of a rank-2 buffer, however spelt. -/
theorem zero2 : (![0, 0] : Fin 2 → Nat) = fun _ => 0 := by
  funext a; match a with | ⟨0, _⟩ => rfl | ⟨1, _⟩ => rfl

/-- The chunk a column of the score buffer belongs to. -/
def colChunk (y : S8x2048.Idx) : Fin k0_t1_loop.trips :=
  ⟨(y 1).val / 256, by
    have h : (y 1).val < 2048 := (y 1).isLt
    rw [trips1_eq]; omega⟩

/-- A score-buffer index inside its chunk: the same row, the column modulo 256. -/
def colLocal (y : S8x2048.Idx) : S8x256.Idx :=
  ix2 (⟨(y 0).val, (y 0).isLt⟩ : Fin 8) (⟨(y 1).val % 256, Nat.mod_lt _ (by decide)⟩ : Fin 256)

/-- The features' chunk a trip reads: rows [256 k, 256 k + 256) of the block. -/
def featChunkAt (arg1 : Memref sig .tc .vmem S8x2048x256 .f32) (X_arg1 : BufTy.Contents (Elt F) arg1.view.ty)
    (k : Fin k0_t1_loop.trips) : Vec F S8x256x256 .f32 :=
  View.readAt (Elt F) arg1.view
    (Rect.unit (s := S8x2048x256) (k0_off1 k) S8x256x256.size (k0_off1_inb k)).toLoadRect X_arg1

/-- The score buffer as one function of the features block `X_arg1` and the loop-invariant operands:
    at column `c` of row `r`, the score chunk of the features' rows [256 (c / 256), …) at (r, c mod 256). -/
def scoreOf (v0 : Vec F S8x256 .f32) (v2 : Vec F S256x256 .bf16) (v5 : Vec F S256 .f32) (v9 : Vec F S256x256 .bf16)
    (v11 : Vec F S256 .f32) (v13 : Vec F S256x1 .bf16) (v15 : Vec F S1 .f32)
    (arg1 : Memref sig .tc .vmem S8x2048x256 .f32) (X_arg1 : BufTy.Contents (Elt F) arg1.view.ty) : FVec F S8x2048 .f32 :=
  fun y => k0_pay3 v0 v2 v5 v9 v11 v13 v15 (featChunkAt arg1 X_arg1 (colChunk y)) (colLocal y)

/-- After `n` trips, every column below 256 n of the score buffer holds its score, whatever lay underneath. -/
theorem score_prefix (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty)
    (f : BufTy.Contents (Elt F) arg11.view.ty) :
    ∀ n, n ≤ k0_t1_loop.trips → ∀ y : S8x2048.Idx, (y 1).val < 256 * n →
      arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 n)) y
        = scoreOf v0 v2 v5 v9 v11 v13 v15 arg1 X_arg1 y := by
  intro n
  induction n with
  | zero => intro _ y hy; omega
  | succ k ih =>
    intro hk y hy
    have hk' : k < k0_t1_loop.trips := hk
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 ⟨k, hk'⟩
    rw [show k + 1 = (⟨k, hk'⟩ : Fin k0_t1_loop.trips).val + 1 from rfl, e, trip1_pieces, List.singleton_append]
    by_cases hc : 256 * k ≤ (y 1).val
    · -- the column lies in the newest chunk
      have hchunk : colChunk y = ⟨k, hk'⟩ := Fin.ext (by
        show (y 1).val / 256 = k
        omega)
      refine (View.read_writes_cons_unit_of_mem arg11.view f (k0_off2_inb ⟨k, hk'⟩) _ _ y (colLocal y)
        (k0_off2_eq ⟨k, hk'⟩) (fun a => by
          match a with
          | ⟨0, _⟩ => show (y 0).val = 0 + (y 0).val; omega
          | ⟨1, _⟩ => show (y 1).val = 256 * k + (y 1).val % 256; omega)).trans ?_
      unfold scoreOf
      rw [hchunk]
      rfl
    · -- an older chunk: the newest piece misses it
      rw [View.read_writes_cons_unit_of_not_mem arg11.view f (k0_off2_inb ⟨k, hk'⟩) _ _ y (k0_off2_eq ⟨k, hk'⟩)
        (1 : Fin 2) (Or.inl (by show (y 1).val < 256 * k; omega))]
      exact ih (Nat.le_of_lt hk') y (by omega)

/-- The whole score buffer read back after the loop is `scoreOf`: what lay underneath is gone. -/
theorem score_read (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty)
    (f : BufTy.Contents (Elt F) arg11.view.ty) :
    View.readAt (Elt F) arg11.view (Rect.unit (s := S8x2048) ![0, 0] S8x2048.size inb_S8x2048_S8x2048_0_0).toLoadRect
        (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 (Scf.trips k0_t1_loop.lb k0_t1_loop.ub k0_t1_loop.st)))
      = scoreOf v0 v2 v5 v9 v11 v13 v15 arg1 X_arg1 := by
  rw [View.readAt_eq_ld, View.ld_unit_zero (S := S8x2048) zero2]
  funext y
  exact score_prefix 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 f _ (Nat.le_refl _) y (by
    have h : (y 1).val < 2048 := (y 1).isLt
    show (y 1).val < 256 * k0_t1_loop.trips
    rw [trips1_eq]; omega)

end Cert.Kernel.LoopValue

end
-- ==== Proof.TripPieces.lean ====
/-
  What one trip of each of the body's two counted loops writes.
  Trip `k` of the first loop stores, into columns [256k, 256k + 256) of the score buffer, the scores of
  the features' rows [256k, 256k + 256); trip `k` of the second loop stores, over the whole context
  accumulator, one accumulation step from the features' and the attention weights' chunk `k` and the
  accumulator's contents as the trip finds them. Each trip writes exactly one piece.
-/
import proofs.«415179_j73091753443736_3_alg».proof.Proof.Gen.KernelIdeal.Loops

set_option maxRecDepth 16384

noncomputable section

namespace Cert.KernelIdeal.LoopValue

open Cert.KernelIdeal Cert.KernelIdeal.Gen
open Idealize.ShloMosaic Idealize.ShloMosaic.TcCoe
open Idealize.SL Idealize.SL.Sem

variable {F : FTy → Type} [FloatOps F]

/-- The one piece of trip `k` of the score loop: the scores of the features' chunk `k`, at the chunk's columns. -/
theorem trip1_pieces (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 k
      = [(⟨Rect.unit (s := S8x2048) (k0_off2 k) S8x256.size (k0_off2_inb k),
          k0_pay3 v0 v2 v5 v9 v11 v13 v15
            (View.readAt (Elt F) arg1.view (Rect.unit (s := S8x2048x256) (k0_off1 k) S8x256x256.size (k0_off1_inb k)).toLoadRect X_arg1)⟩ : View.Piece (Elt F) S8x2048 .f32)] := by
  unfold tripL_k0_t1
  unfold trip_k0_t1
  rfl

/-- The one piece of trip `k` of the context loop: one accumulation step over the whole accumulator. -/
theorem trip2_pieces (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (X_arg1 : BufTy.Contents (Elt F) arg1.view.ty) (X_arg10 : BufTy.Contents (Elt F) arg10.view.ty) (k : Fin k0_t2_loop.trips) (f_arg12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg10 k f_arg12
      = [(⟨Rect.unit (s := S8x256) ![0, 0] S8x256.size inb_S8x256_S8x256_0_0,
          k0_pay2
            (View.readAt (Elt F) arg1.view (Rect.unit (s := S8x2048x256) (k0_off3 k) S8x256x256.size (k0_off3_inb k)).toLoadRect X_arg1)
            (View.readAt (Elt F) arg10.view (Rect.unit (s := S8x2048) (k0_off4 k) S8x256.size (k0_off4_inb k)).toLoadRect X_arg10)
            (View.readAt (Elt F) arg12.view (Rect.unit (s := S8x256) ![0, 0] S8x256.size inb_S8x256_S8x256_0_0).toLoadRect f_arg12)⟩ : View.Piece (Elt F) S8x256 .f32)] := by
  unfold tripL_k0_t2
  unfold trip_k0_t2
  rfl

end Cert.KernelIdeal.LoopValue

end
-- ==== Proof.ScoreLoop.lean ====
/-
  The score buffer after the first counted loop.
  Trip `k` stores the scores of the features' chunk `k` into columns [256k, 256k + 256) of the [8, 2048]
  score buffer, so after `n` trips every column below 256n holds its chunk's score, whatever the buffer
  held before: by induction on `n`, the newest piece read first. After all eight trips the whole buffer
  is one function of the features block, `scoreOf`, and what lay underneath is gone from the reading.
-/
import proofs.«415179_j73091753443736_3_alg».proof.Proof.TripPieces
import Idealize.ShloMosaic.Lib.WritesUnit
import Idealize.ShloMosaic.Lib.ValueIdx
import Idealize.ShloMosaic.Lib.Pipeline.Value

set_option maxRecDepth 16384

noncomputable section

namespace Cert.KernelIdeal.LoopValue

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The first loop makes eight trips. -/
theorem trips1_eq : k0_t1_loop.trips = 8 := by decide +kernel

/-- The zero offsets of a rank-2 buffer, however spelt. -/
theorem zero2 : (![0, 0] : Fin 2 → Nat) = fun _ => 0 := by
  funext a; match a with | ⟨0, _⟩ => rfl | ⟨1, _⟩ => rfl

/-- The chunk a column of the score buffer belongs to. -/
def colChunk (y : S8x2048.Idx) : Fin k0_t1_loop.trips :=
  ⟨(y 1).val / 256, by
    have h : (y 1).val < 2048 := (y 1).isLt
    rw [trips1_eq]; omega⟩

/-- A score-buffer index inside its chunk: the same row, the column modulo 256. -/
def colLocal (y : S8x2048.Idx) : S8x256.Idx :=
  ix2 (⟨(y 0).val, (y 0).isLt⟩ : Fin 8) (⟨(y 1).val % 256, Nat.mod_lt _ (by decide)⟩ : Fin 256)

/-- The features' chunk a trip reads: rows [256 k, 256 k + 256) of the block. -/
def featChunkAt (arg1 : Memref sig .tc .vmem S8x2048x256 .f32) (X_arg1 : BufTy.Contents (Elt F) arg1.view.ty)
    (k : Fin k0_t1_loop.trips) : Vec F S8x256x256 .f32 :=
  View.readAt (Elt F) arg1.view
    (Rect.unit (s := S8x2048x256) (k0_off1 k) S8x256x256.size (k0_off1_inb k)).toLoadRect X_arg1

/-- The score buffer as one function of the features block `X_arg1` and the loop-invariant operands:
    at column `c` of row `r`, the score chunk of the features' rows [256 (c / 256), …) at (r, c mod 256). -/
def scoreOf (v0 : Vec F S8x256 .f32) (v2 : Vec F S256x256 .bf16) (v5 : Vec F S256 .f32) (v9 : Vec F S256x256 .bf16)
    (v11 : Vec F S256 .f32) (v13 : Vec F S256x1 .bf16) (v15 : Vec F S1 .f32)
    (arg1 : Memref sig .tc .vmem S8x2048x256 .f32) (X_arg1 : BufTy.Contents (Elt F) arg1.view.ty) : FVec F S8x2048 .f32 :=
  fun y => k0_pay3 v0 v2 v5 v9 v11 v13 v15 (featChunkAt arg1 X_arg1 (colChunk y)) (colLocal y)

/-- After `n` trips, every column below 256 n of the score buffer holds its score, whatever lay underneath. -/
theorem score_prefix (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty)
    (f : BufTy.Contents (Elt F) arg11.view.ty) :
    ∀ n, n ≤ k0_t1_loop.trips → ∀ y : S8x2048.Idx, (y 1).val < 256 * n →
      arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 n)) y
        = scoreOf v0 v2 v5 v9 v11 v13 v15 arg1 X_arg1 y := by
  intro n
  induction n with
  | zero => intro _ y hy; omega
  | succ k ih =>
    intro hk y hy
    have hk' : k < k0_t1_loop.trips := hk
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 ⟨k, hk'⟩
    rw [show k + 1 = (⟨k, hk'⟩ : Fin k0_t1_loop.trips).val + 1 from rfl, e, trip1_pieces, List.singleton_append]
    by_cases hc : 256 * k ≤ (y 1).val
    · -- the column lies in the newest chunk
      have hchunk : colChunk y = ⟨k, hk'⟩ := Fin.ext (by
        show (y 1).val / 256 = k
        omega)
      refine (View.read_writes_cons_unit_of_mem arg11.view f (k0_off2_inb ⟨k, hk'⟩) _ _ y (colLocal y)
        (k0_off2_eq ⟨k, hk'⟩) (fun a => by
          match a with
          | ⟨0, _⟩ => show (y 0).val = 0 + (y 0).val; omega
          | ⟨1, _⟩ => show (y 1).val = 256 * k + (y 1).val % 256; omega)).trans ?_
      unfold scoreOf
      rw [hchunk]
      rfl
    · -- an older chunk: the newest piece misses it
      rw [View.read_writes_cons_unit_of_not_mem arg11.view f (k0_off2_inb ⟨k, hk'⟩) _ _ y (k0_off2_eq ⟨k, hk'⟩)
        (1 : Fin 2) (Or.inl (by show (y 1).val < 256 * k; omega))]
      exact ih (Nat.le_of_lt hk') y (by omega)

/-- The whole score buffer read back after the loop is `scoreOf`: what lay underneath is gone. -/
theorem score_read (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (v0 : Vec F S8x256 .f32) (v2 : Vec F S256x256 .bf16) (v5 : Vec F S256 .f32) (v9 : Vec F S256x256 .bf16) (v11 : Vec F S256 .f32) (v13 : Vec F S256x1 .bf16) (v15 : Vec F S1 .f32) (X_arg1 : BufTy.Contents (Elt F) arg1.view.ty)
    (f : BufTy.Contents (Elt F) arg11.view.ty) :
    View.readAt (Elt F) arg11.view (Rect.unit (s := S8x2048) ![0, 0] S8x2048.size inb_S8x2048_S8x2048_0_0).toLoadRect
        (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 (Scf.trips k0_t1_loop.lb k0_t1_loop.ub k0_t1_loop.st)))
      = scoreOf v0 v2 v5 v9 v11 v13 v15 arg1 X_arg1 := by
  rw [View.readAt_eq_ld, View.ld_unit_zero (S := S8x2048) zero2]
  funext y
  exact score_prefix 𝒱 c bd i arg1 harg1 arg2 harg2 arg3 harg3 arg4 harg4 arg5 harg5 arg6 harg6 arg7 harg7 arg8 harg8 arg9 harg9 arg10 harg10 arg11 harg11 arg12 harg12 v0 v2 v5 v9 v11 v13 v15 X_arg1 f _ (Nat.le_refl _) y (by
    have h : (y 1).val < 2048 := (y 1).isLt
    show (y 1).val < 256 * k0_t1_loop.trips
    rw [trips1_eq]; omega)

end Cert.KernelIdeal.LoopValue

end
-- ==== Proof.Spec.lean ====
/-
  Additive (Bahdanau) attention over the extended reals, as ONE function of the eight argument arrays.

  For a batch row `b`, a position `t` and a unit `u`:
    hidProj b u   = Σ_d hidden[b,d] · w2[u,d] + w2b[u]
    preAct b t u  = Σ_d feat[b,t,d] · w1[u,d] + (w1b[u] + hidProj b u)
    score b t     = Σ_u tanh (preAct b t u) · v[0,u] + vb[0]
    rowMax b      = the maximum over t of score b t, folded from the word of -∞
    expo b t      = exp (score b t - rowMax b)
    denom b       = Σ_t expo b t
    attn b t      = expo b t / denom b
    ctx b d       = Σ_t attn b t · feat[b,t,d]
  The two results are `attn` laid out as [64, 2048, 1] and `ctx` as [64, 256].
-/
import Idealize.ShloMosaic.PureOps.Ideal
import Idealize.ShloMosaic.Lib.ValueIdx

noncomputable section

namespace Cert.Attn

open Idealize.ShloMosaic Idealize.ShloMosaic.ValueIdx

/-- The argument arrays, as functions on their literal index types. -/
abbrev Feat := (⟨3, ![64, 2048, 256]⟩ : Shape).Idx → EReal
abbrev Hid := (⟨2, ![64, 256]⟩ : Shape).Idx → EReal
abbrev Mat := (⟨2, ![256, 256]⟩ : Shape).Idx → EReal
abbrev Row := (⟨1, ![256]⟩ : Shape).Idx → EReal
abbrev VRow := (⟨2, ![1, 256]⟩ : Shape).Idx → EReal
abbrev One := (⟨1, ![1]⟩ : Shape).Idx → EReal

variable (feat : Feat) (hidden : Hid) (w1 : Mat) (w1b : Row) (w2 : Mat) (w2b : Row) (vw : VRow) (vb : One)

/-- The hidden state's projection: a dense layer with weight `w2` and bias `w2b`. -/
def hidProj (b : Fin 64) (u : Fin 256) : EReal :=
  (∑ d : Fin 256, hidden (ix2 b d) * w2 (ix2 u d)) + w2b (ix1 u)

/-- The argument of the tanh: the features' projection plus both biases and the hidden projection. -/
def preAct (b : Fin 64) (t : Fin 2048) (u : Fin 256) : EReal :=
  (∑ d : Fin 256, feat (ix3 b t d) * w1 (ix2 u d)) + (w1b (ix1 u) + hidProj hidden w2 w2b b u)

/-- The raw score of position `t` in row `b`. -/
def score (b : Fin 64) (t : Fin 2048) : EReal :=
  (∑ u : Fin 256, Ideal.tanh (preAct feat hidden w1 w1b w2 w2b b t u) * vw (ix2 0 u)) + vb (ix1 0)

/-- The row's maximal score, folded from the word of -∞. -/
def rowMax (b : Fin 64) : EReal :=
  (Finset.univ : Finset (Fin 2048)).fold max (Ideal.ofBits .f32 0xFF800000#32)
    (fun t => score feat hidden w1 w1b w2 w2b vw vb b t)

/-- The shifted exponential of a score. -/
def expo (b : Fin 64) (t : Fin 2048) : EReal :=
  Ideal.exp (score feat hidden w1 w1b w2 w2b vw vb b t - rowMax feat hidden w1 w1b w2 w2b vw vb b)

/-- The softmax denominator of row `b`. -/
def denom (b : Fin 64) : EReal := ∑ t : Fin 2048, expo feat hidden w1 w1b w2 w2b vw vb b t

/-- The attention weight of position `t` in row `b`. -/
def attn (b : Fin 64) (t : Fin 2048) : EReal :=
  Ideal.div (expo feat hidden w1 w1b w2 w2b vw vb b t) (denom feat hidden w1 w1b w2 w2b vw vb b)

/-- The context vector: the attention-weighted sum of the features over the positions. -/
def ctx (b : Fin 64) (d : Fin 256) : EReal :=
  ∑ t : Fin 2048, attn feat hidden w1 w1b w2 w2b vw vb b t * feat (ix3 b t d)

/-- The attention result, laid out [64, 2048, 1]. -/
def attnOut : (⟨3, ![64, 2048, 1]⟩ : Shape).Idx → EReal :=
  fun i => attn feat hidden w1 w1b w2 w2b vw vb (i 0) (i 1)

/-- The context result, laid out [64, 256]. -/
def ctxOut : (⟨2, ![64, 256]⟩ : Shape).Idx → EReal :=
  fun i => ctx feat hidden w1 w1b w2 w2b vw vb (i 0) (i 1)

end Cert.Attn

end
-- ==== Proof.RefValue.lean ====
/-
  The reference program's two results, read at an index at the extended reals, are the attention
  function `Cert.Attn.attnOut` and the context function `Cert.Attn.ctxOut` of the argument arrays.

  The reading goes stage by stage: the hidden state's projection, the argument of the tanh, the score,
  the row's maximal score, the shifted exponential, the softmax denominator and the attention weight.
  Each stage of the reference, read at an index given by its coordinates, is the specification's function
  of the same name; the two results then follow by splitting an index into its coordinates.
-/
import proofs.«415179_j73091753443736_3_alg».proof.Proof.Gen.ReferenceIdeal.Read
import proofs.«415179_j73091753443736_3_alg».proof.Proof.Spec
import Idealize.ShloMosaic.PureOps.Ideal.Laws
import Idealize.ShloMosaic.PureOps.Reduce
import Idealize.ShloMosaic.Lib.ValueIdx
import Idealize.ShloMosaic.Lib.Pipeline.Value
import Mathlib.Data.Finset.Fold

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : FVec Ideal S64x2048x256 .f32) (x1 : FVec Ideal S64x256 .f32) (x2 : FVec Ideal S256x256 .f32)
  (x3 : FVec Ideal S256 .f32) (x4 : FVec Ideal S256x256 .f32) (x5 : FVec Ideal S256 .f32)
  (x6 : FVec Ideal S1x256 .f32) (x7 : FVec Ideal S1 .f32)

/-! ### The composed index functions on an index given by its coordinates -/

theorem lidx_v4 (b : Fin 64) (u k : Fin 256) : lidx_main_v4 (ix2 b u) k = ix2 b k :=
  funext fun a => by match a with | ⟨0, _⟩ => rfl | ⟨1, _⟩ => rfl
theorem ridx_v4 (b : Fin 64) (u k : Fin 256) : ridx_main_v4 (ix2 b u) k = ix2 u k :=
  funext fun a => by match a with | ⟨0, _⟩ => rfl | ⟨1, _⟩ => rfl
theorem idx_v6 (b : Fin 64) (u : Fin 256) : idx_main_v5 (idx_main_v6 (ix2 b u)) = ix1 u :=
  funext fun a => by match a with | ⟨0, _⟩ => rfl
theorem lidx_v0 (b : Fin 64) (t : Fin 2048) (u k : Fin 256) : lidx_main_v0 (ix3 b t u) k = ix3 b t k :=
  funext fun a => by match a with | ⟨0, _⟩ => rfl | ⟨1, _⟩ => rfl | ⟨2, _⟩ => rfl
theorem ridx_v0 (b : Fin 64) (t : Fin 2048) (u k : Fin 256) : ridx_main_v0 (ix3 b t u) k = ix2 u k :=
  funext fun a => by match a with | ⟨0, _⟩ => rfl | ⟨1, _⟩ => rfl
theorem idx_v2 (b : Fin 64) (t : Fin 2048) (u : Fin 256) : idx_main_v1 (idx_main_v2 (ix3 b t u)) = ix1 u :=
  funext fun a => by match a with | ⟨0, _⟩ => rfl
theorem idx_v9 (b : Fin 64) (t : Fin 2048) (u : Fin 256) : idx_main_v8 (idx_main_v9 (ix3 b t u)) = ix2 b u :=
  funext fun a => by match a with | ⟨0, _⟩ => rfl | ⟨1, _⟩ => rfl
theorem lidx_v12 (b : Fin 64) (t : Fin 2048) (k : Fin 256) : lidx_main_v12 (ix3 b t (0 : Fin 1)) k = ix3 b t k :=
  funext fun a => by match a with | ⟨0, _⟩ => rfl | ⟨1, _⟩ => rfl | ⟨2, _⟩ => rfl
theorem ridx_v12 (b : Fin 64) (t : Fin 2048) (k : Fin 256) : ridx_main_v12 (ix3 b t (0 : Fin 1)) k = ix2 (0 : Fin 1) k :=
  funext fun a => by match a with | ⟨0, _⟩ => rfl | ⟨1, _⟩ => rfl
theorem idx_v14 (b : Fin 64) (t : Fin 2048) : idx_main_v13 (idx_main_v14 (ix3 b t (0 : Fin 1))) = ix1 (0 : Fin 1) :=
  funext fun a => by match a with | ⟨0, _⟩ => rfl
theorem idx_v20 (b : Fin 64) (t : Fin 2048) : idx_main_v19 (idx_main_v20 (ix3 b t (0 : Fin 1))) = ix2 b (0 : Fin 1) :=
  funext fun a => by match a with | ⟨0, _⟩ => rfl | ⟨1, _⟩ => rfl
theorem idx_v23 (b : Fin 64) (k : Fin 2048) : idx_main_v23 (ix2 b (0 : Fin 1)) k = ix3 b k (0 : Fin 1) :=
  funext fun a => by match a with | ⟨0, _⟩ => rfl | ⟨1, _⟩ => rfl | ⟨2, _⟩ => rfl
theorem idx_v25 (b : Fin 64) (t : Fin 2048) : idx_main_v24 (idx_main_v25 (ix3 b t (0 : Fin 1))) = ix2 b (0 : Fin 1) :=
  funext fun a => by match a with | ⟨0, _⟩ => rfl | ⟨1, _⟩ => rfl
theorem idx_v29 (b : Fin 64) (d : Fin 256) (k : Fin 2048) : idx_main_v29 (ix2 b d) k = ix3 b k d :=
  funext fun a => by match a with | ⟨0, _⟩ => rfl | ⟨1, _⟩ => rfl | ⟨2, _⟩ => rfl
theorem idx_v27 (b : Fin 64) (t : Fin 2048) (d : Fin 256) : idx_main_v27 (ix3 b t d) = ix3 b t (0 : Fin 1) :=
  funext fun a => by match a with | ⟨0, _⟩ => rfl | ⟨1, _⟩ => rfl | ⟨2, _⟩ => rfl

/-- The hidden state's dense layer: the contraction of the hidden row with a weight row, plus the bias. -/
theorem hid_stage (b : Fin 64) (u : Fin 256) :
    val_main_v7 (F := Ideal) x1 x4 x5 (ix2 b u) = Cert.Attn.hidProj x1 x4 x5 b u := by
  rw [val_main_v7_apply, val_main_v4_apply, val_main_v6_apply, val_main_v5_apply]
  simp only [lidx_v4, ridx_v4, idx_v6, Ideal.addf_def]
  rfl

/-- The argument of the tanh: the reference adds the features' projection and its bias first and the hidden
    projection last; the sum is re-associated. -/
theorem preact_stage (b : Fin 64) (t : Fin 2048) (u : Fin 256) :
    val_main_v10 (F := Ideal) x0 x1 x2 x3 x4 x5 (ix3 b t u) = Cert.Attn.preAct x0 x1 x2 x3 x4 x5 b t u := by
  rw [val_main_v10_apply, val_main_v3_apply, val_main_v0_apply, val_main_v2_apply, val_main_v1_apply,
    val_main_v9_apply, val_main_v8_apply, idx_v9, hid_stage]
  simp only [lidx_v0, ridx_v0, idx_v2, Ideal.addf_def]
  rw [add_assoc]
  rfl

/-- The raw score: the contraction of the tanh row with the scoring vector, plus its bias. -/
theorem score_stage (b : Fin 64) (t : Fin 2048) :
    val_main_v15 (F := Ideal) x0 x1 x2 x3 x4 x5 x6 x7 (ix3 b t (0 : Fin 1))
      = Cert.Attn.score x0 x1 x2 x3 x4 x5 x6 x7 b t := by
  rw [val_main_v15_apply, val_main_v12_apply, val_main_v14_apply, val_main_v13_apply]
  simp only [lidx_v12, ridx_v12, idx_v14, val_main_v11_apply, preact_stage, Ideal.addf_def,
    Ideal.hostUnary_tanh_def]
  rfl

/-- In a linear order the maximum of a value with a fold of `max` that starts from that value is the fold:
    the fold is at least its initial value. -/
theorem max_fold_max_self {ι : Type} (s : Finset ι) (c : EReal) (f : ι → EReal) :
    max c (s.fold max c f) = s.fold max c f :=
  max_eq_right ((Finset.le_fold_max c).mpr (Or.inl le_rfl))

/-- The positions of a row, as indices of the score array: the row's index with the position inserted. -/
theorem lift_row (h : S64x2048x1.Reduces [1] S64x1) (b : Fin 64) (t : Fin 2048) :
    h.lift (ix2 b (0 : Fin 1)) t = ix3 b t (0 : Fin 1) :=
  funext fun a => Fin.ext (by match a with | ⟨0, _⟩ => rfl | ⟨1, _⟩ => rfl | ⟨2, _⟩ => rfl)

/-- The row's maximal score: the reduction over the positions is the fold of `max` over them from the
    initial word, and the further maximum with that same word changes nothing. -/
theorem max_stage (b : Fin 64) :
    val_main_v18 (F := Ideal) x0 x1 x2 x3 x4 x5 x6 x7 (ix2 b (0 : Fin 1))
      = Cert.Attn.rowMax x0 x1 x2 x3 x4 x5 x6 x7 b := by
  have h : S64x2048x1.Reduces [1] S64x1 := by decide
  rw [val_main_v18_apply, val_main_v17_apply, val_main_cst_0_apply]
  unfold val_main_v16
  rw [Host.reduce_eq_fold_single FloatOps.maximumf _ _ reducesTo_S64x2048x1_S64x1_d1 h h_S_, val_main_cst_apply]
  have hf : (val_main_v15 (F := Ideal) x0 x1 x2 x3 x4 x5 x6 x7 ∘ h.lift (ix2 b (0 : Fin 1)))
      = fun t : Fin 2048 => Cert.Attn.score x0 x1 x2 x3 x4 x5 x6 x7 b t :=
    funext fun t : Fin 2048 =>
      (congrArg (val_main_v15 (F := Ideal) x0 x1 x2 x3 x4 x5 x6 x7) (lift_row h b t)).trans
        (score_stage x0 x1 x2 x3 x4 x5 x6 x7 b t)
  rw [hf]
  exact max_fold_max_self _ _ _

/-- The shifted exponential of a score. -/
theorem exp_stage (b : Fin 64) (t : Fin 2048) :
    val_main_v22 (F := Ideal) x0 x1 x2 x3 x4 x5 x6 x7 (ix3 b t (0 : Fin 1))
      = Cert.Attn.expo x0 x1 x2 x3 x4 x5 x6 x7 b t := by
  rw [val_main_v22_apply, val_main_v21_apply, val_main_v20_apply, val_main_v19_apply, idx_v20, score_stage,
    max_stage, Ideal.hostUnary_exp_def, Ideal.subf_def]
  rfl

/-- The softmax denominator: the sum over the positions starts from the word of zero, which adds nothing. -/
theorem sum_stage (b : Fin 64) :
    val_main_v23 (F := Ideal) x0 x1 x2 x3 x4 x5 x6 x7 (ix2 b (0 : Fin 1))
      = Cert.Attn.denom x0 x1 x2 x3 x4 x5 x6 x7 b := by
  rw [val_main_v23_apply, val_main_cst_1_apply, Ideal.ofBits_def, Ideal.ofBits_zero_f32, zero_add]
  simp only [idx_v23, exp_stage]
  rfl

/-- The attention weight: the shifted exponential over the row's denominator. -/
theorem attn_stage (b : Fin 64) (t : Fin 2048) :
    val_main_v26 (F := Ideal) x0 x1 x2 x3 x4 x5 x6 x7 (ix3 b t (0 : Fin 1))
      = Cert.Attn.attn x0 x1 x2 x3 x4 x5 x6 x7 b t := by
  rw [val_main_v26_apply, val_main_v25_apply, val_main_v24_apply, idx_v25, exp_stage, sum_stage,
    Ideal.hostDivf_def]
  rfl

/-- The reference's attention result is the softmax over the positions of the additive scores. -/
theorem attn_eq : val_main_v26 (F := Ideal) x0 x1 x2 x3 x4 x5 x6 x7 = Cert.Attn.attnOut x0 x1 x2 x3 x4 x5 x6 x7 := by
  funext i
  obtain ⟨b, t, z, rfl⟩ : ∃ (b : Fin 64) (t : Fin 2048) (z : Fin 1), i = ix3 b t z := ⟨_, _, _, eq_ix3 i⟩
  obtain rfl : z = 0 := Subsingleton.elim _ _
  exact attn_stage x0 x1 x2 x3 x4 x5 x6 x7 b t

/-- The reference's context result is the attention-weighted sum of the features over the positions. -/
theorem ctx_eq : val_main_v29 (F := Ideal) x0 x1 x2 x3 x4 x5 x6 x7 = Cert.Attn.ctxOut x0 x1 x2 x3 x4 x5 x6 x7 := by
  funext i
  obtain ⟨b, d, rfl⟩ : ∃ (b : Fin 64) (d : Fin 256), i = ix2 b d := ⟨_, _, eq_ix2 i⟩
  rw [val_main_v29_apply, val_main_cst_2_apply, Ideal.ofBits_def, Ideal.ofBits_zero_f32, zero_add]
  simp only [val_main_v28_apply, val_main_v27_apply, idx_v29, idx_v27, attn_stage, Ideal.mulf_def]
  rfl

end Cert.ReferenceIdeal.RefValue

end
-- ==== Proof.CtxLoop.lean ====
/-
  The context accumulator after the second counted loop.
  Every trip reads the accumulator whole, adds the chunk's attention weights contracted with the chunk's
  features, and stores the sum back whole; so after `n` trips the accumulator is the `n`-fold recursion
  `ctxAcc` from what it held at loop entry: by induction on `n`, each trip's one piece read back whole.
-/
import proofs.«415179_j73091753443736_3_alg».proof.Proof.TripPieces
import Idealize.ShloMosaic.Lib.WritesUnit
import Idealize.ShloMosaic.Lib.ValueIdx
import Idealize.ShloMosaic.Lib.Pipeline.Value

set_option maxRecDepth 16384

noncomputable section

namespace Cert.KernelIdeal.LoopValue

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The second loop makes eight trips. -/
theorem trips2_eq : k0_t2_loop.trips = 8 := by decide +kernel

/-- The zero offsets of the accumulator, however spelt. -/
theorem zero2' : (![0, 0] : Fin 2 → Nat) = fun _ => 0 := by
  funext a; match a with | ⟨0, _⟩ => rfl | ⟨1, _⟩ => rfl

/-- The features' chunk trip `k` of the second loop reads. -/
def featChunkAt2 (arg1 : Memref sig .tc .vmem S8x2048x256 .f32) (X_arg1 : BufTy.Contents (Elt F) arg1.view.ty)
    (k : Fin k0_t2_loop.trips) : Vec F S8x256x256 .f32 :=
  View.readAt (Elt F) arg1.view
    (Rect.unit (s := S8x2048x256) (k0_off3 k) S8x256x256.size (k0_off3_inb k)).toLoadRect X_arg1

/-- The attention weights' chunk trip `k` of the second loop reads. -/
def attnChunkAt (arg10 : Memref sig .tc .vmem S8x2048 .f32) (X_arg10 : BufTy.Contents (Elt F) arg10.view.ty)
    (k : Fin k0_t2_loop.trips) : Vec F S8x256 .f32 :=
  View.readAt (Elt F) arg10.view
    (Rect.unit (s := S8x2048) (k0_off4 k) S8x256.size (k0_off4_inb k)).toLoadRect X_arg10

/-- The accumulator after `n` trips, from `a0`: each trip adds its chunk's contraction. -/
def ctxAcc (arg1 : Memref sig .tc .vmem S8x2048x256 .f32) (X_arg1 : BufTy.Contents (Elt F) arg1.view.ty)
    (arg10 : Memref sig .tc .vmem S8x2048 .f32) (X_arg10 : BufTy.Contents (Elt F) arg10.view.ty)
    (a0 : FVec F S8x256 .f32) : ℕ → FVec F S8x256 .f32
  | 0 => a0
  | n + 1 =>
    if h : n < k0_t2_loop.trips then
      k0_pay2 (featChunkAt2 arg1 X_arg1 ⟨n, h⟩) (attnChunkAt arg10 X_arg10 ⟨n, h⟩) (ctxAcc arg1 X_arg1 arg10 X_arg10 a0 n)
    else ctxAcc arg1 X_arg1 arg10 X_arg10 a0 n

/-- After `n` trips the accumulator reads `ctxAcc … n` of what it read at loop entry. -/
theorem ctx_prefix (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (X_arg1 : BufTy.Contents (Elt F) arg1.view.ty) (X_arg10 : BufTy.Contents (Elt F) arg10.view.ty) (G_arg12 : BufTy.Contents (Elt F) arg12.view.ty) :
    ∀ n, n ≤ k0_t2_loop.trips →
      arg12.view.read (Elt F) (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg10 G_arg12 n))
        = ctxAcc arg1 X_arg1 arg10 X_arg10 (arg12.view.read (Elt F) G_arg12) n := by
  intro n
  induction n with
  | zero => intro _; rfl
  | succ k ih =>
    intro hk
    have hk' : k < k0_t2_loop.trips := hk
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 X_arg1 X_arg10 G_arg12 ⟨k, hk'⟩
    rw [show k + 1 = (⟨k, hk'⟩ : Fin k0_t2_loop.trips).val + 1 from rfl, e, trip2_pieces, List.singleton_append]
    funext y
    refine (View.read_writes_cons_unit_of_mem arg12.view G_arg12 inb_S8x256_S8x256_0_0 _ _ y y rfl (fun a => by
      match a with
      | ⟨0, _⟩ => show (y 0).val = 0 + (y 0).val; omega
      | ⟨1, _⟩ => show (y 1).val = 0 + (y 1).val; omega)).trans ?_
    show _ = ctxAcc arg1 X_arg1 arg10 X_arg10 (arg12.view.read (Elt F) G_arg12) (k + 1) y
    rw [ctxAcc, dif_pos hk']
    have hacc : View.readAt (Elt F) arg12.view
        (Rect.unit (s := S8x256) ![0, 0] S8x256.size inb_S8x256_S8x256_0_0).toLoadRect
        (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg10 G_arg12 k))
          = ctxAcc arg1 X_arg1 arg10 X_arg10 (arg12.view.read (Elt F) G_arg12) k := by
      rw [View.readAt_eq_ld, View.ld_unit_zero (S := S8x256) zero2']
      exact ih (Nat.le_of_lt hk')
    rw [hacc]
    rfl

/-- The accumulator read back whole after the loop. -/
theorem ctx_read (𝒱 : Variants) (c : Dev nD) (bd : Option 𝒱.V) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole) (X_arg1 : BufTy.Contents (Elt F) arg1.view.ty) (X_arg10 : BufTy.Contents (Elt F) arg10.view.ty) (G_arg12 : BufTy.Contents (Elt F) arg12.view.ty) :
    View.readAt (Elt F) arg12.view (Rect.unit (s := S8x256) ![0, 0] S8x256.size inb_S8x256_S8x256_0_0).toLoadRect
        (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg10 G_arg12 (Scf.trips k0_t2_loop.lb k0_t2_loop.ub k0_t2_loop.st)))
      = ctxAcc arg1 X_arg1 arg10 X_arg10 (arg12.view.read (Elt F) G_arg12) k0_t2_loop.trips := by
  rw [View.readAt_eq_ld, View.ld_unit_zero (S := S8x256) zero2']
  exact ctx_prefix 𝒱 c bd i arg1 harg1 arg2 harg2 arg3 harg3 arg4 harg4 arg5 harg5 arg6 harg6 arg7 harg7 arg8 harg8 arg9 harg9 arg10 harg10 arg11 harg11 arg12 harg12 X_arg1 X_arg10 G_arg12 _ (Nat.le_refl _)

end Cert.KernelIdeal.LoopValue

end
-- ==== Proof.PayValue.lean ====
/-
  The kernel body's four stored values, read at an index at the extended reals: a chunk of raw scores,
  the softmax of a whole row of scores, one accumulation step of the context, and the zero the context
  accumulator starts from.
-/
import proofs.«415179_j73091753443736_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen
open Idealize.ShloMosaic Idealize.ShloMosaic.TcCoe Idealize.ShloMosaic.ValueIdx

/-- On the rows axis the left operand of `dot_S8x256_S256x256_S8x256_1_0_0_1_n_n` reads the output's row. -/
theorem lhs_hid_0 (i : S8x256.Idx) (q : dot_S8x256_S256x256_S8x256_1_0_0_1_n_n.contr.Idx) :
    (dot_S8x256_S256x256_S8x256_1_0_0_1_n_n.lhsIdx i q 0).val = (i 0).val := by
  unfold DotDims.lhsIdx
  rw [dif_neg (show ¬(0 : Fin S8x256.rank) ∈ dot_S8x256_S256x256_S8x256_1_0_0_1_n_n.lhsBatch by decide), dif_pos (show (0 : Fin S8x256.rank) ∈ dot_S8x256_S256x256_S8x256_1_0_0_1_n_n.lhsNonContracting by decide)]
  rfl
/-- On its contracted axis the left operand reads the contraction position. -/
theorem lhs_hid_1 (i : S8x256.Idx) (q : dot_S8x256_S256x256_S8x256_1_0_0_1_n_n.contr.Idx) :
    (dot_S8x256_S256x256_S8x256_1_0_0_1_n_n.lhsIdx i q 1).val = (q ⟨0, by decide⟩).val :=
  dot_S8x256_S256x256_S8x256_1_0_0_1_n_n.lhsIdx_val_of_single rfl i q
/-- On its contracted axis the right operand reads the contraction position. -/
theorem rhs_hid_0 (i : S8x256.Idx) (q : dot_S8x256_S256x256_S8x256_1_0_0_1_n_n.contr.Idx) :
    (dot_S8x256_S256x256_S8x256_1_0_0_1_n_n.rhsIdx i q 0).val = (q ⟨0, by decide⟩).val :=
  dot_S8x256_S256x256_S8x256_1_0_0_1_n_n.rhsIdx_val_of_single rfl i q
/-- On the columns axis the right operand reads the output's column. -/
theorem rhs_hid_1 (i : S8x256.Idx) (q : dot_S8x256_S256x256_S8x256_1_0_0_1_n_n.contr.Idx) :
    (dot_S8x256_S256x256_S8x256_1_0_0_1_n_n.rhsIdx i q 1).val = (i 1).val := by
  unfold DotDims.rhsIdx
  rw [dif_neg (show ¬(1 : Fin S256x256.rank) ∈ dot_S8x256_S256x256_S8x256_1_0_0_1_n_n.rhsBatch by decide), dif_pos (show (1 : Fin S256x256.rank) ∈ dot_S8x256_S256x256_S8x256_1_0_0_1_n_n.rhsNonContracting by decide)]
  rfl
/-- A product of an 8-row matrix with a square one into the zero accumulator, at a position: the sum over the 256 shared coordinates of the products. -/
theorem mm_hid_apply (l : FVec Ideal S8x256 .bf16) (r : FVec Ideal S256x256 .bf16) (a : Fin 8) (c : Fin 256) :
    matmul (F := Ideal) dot_S8x256_S256x256_S8x256_1_0_0_1_n_n none l r (constant (F := Ideal) S8x256 .f32 0x00000000#32) (ix2 a c)
      = ∑ k : Fin 256, l (ix2 a k) * r (ix2 k c) := by
  refine (Ideal.matmul_constant_zero_apply dot_S8x256_S256x256_S8x256_1_0_0_1_n_n none l r (ix2 a c)).trans ?_
  rw [← Equiv.sum_comp (contrEquiv1 dot_S8x256_S256x256_S8x256_1_0_0_1_n_n 256 rfl rfl).symm]
  refine Finset.sum_congr rfl fun k _ => ?_
  have hk := contrEquiv1_symm_val dot_S8x256_S256x256_S8x256_1_0_0_1_n_n 256 rfl rfl k
  have el : dot_S8x256_S256x256_S8x256_1_0_0_1_n_n.lhsIdx (ix2 a c) ((contrEquiv1 dot_S8x256_S256x256_S8x256_1_0_0_1_n_n 256 rfl rfl).symm k) = ix2 a k := funext fun x => Fin.ext (by
    match x with
    | ⟨0, _⟩ => exact lhs_hid_0 _ _
    | ⟨1, _⟩ => exact (lhs_hid_1 _ _).trans hk)
  have er : dot_S8x256_S256x256_S8x256_1_0_0_1_n_n.rhsIdx (ix2 a c) ((contrEquiv1 dot_S8x256_S256x256_S8x256_1_0_0_1_n_n 256 rfl rfl).symm k) = ix2 k c := funext fun x => Fin.ext (by
    match x with
    | ⟨0, _⟩ => exact (rhs_hid_0 _ _).trans hk
    | ⟨1, _⟩ => exact rhs_hid_1 _ _)
  rw [el, er]

/-- On the rows axis the left operand of `dot_S2048x256_S256x256_S2048x256_1_0_0_1_n_n` reads the output's row. -/
theorem lhs_proj_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- On its contracted axis the left operand reads the contraction position. -/
theorem lhs_proj_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- On its contracted axis the right operand reads the contraction position. -/
theorem rhs_proj_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- On the columns axis the right operand reads the output's column. -/
theorem rhs_proj_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- A product of a 2048-row matrix with a square one into the zero accumulator, at a position: the sum over the 256 shared coordinates of the products. -/
theorem mm_proj_apply (l : FVec Ideal S2048x256 .bf16) (r : FVec Ideal S256x256 .bf16) (a : Fin 2048) (c : Fin 256) :
    matmul (F := Ideal) dot_S2048x256_S256x256_S2048x256_1_0_0_1_n_n none l r (constant (F := Ideal) S2048x256 .f32 0x00000000#32) (ix2 a c)
      = ∑ k : Fin 256, l (ix2 a k) * r (ix2 k c) := by
  refine (Ideal.matmul_constant_zero_apply dot_S2048x256_S256x256_S2048x256_1_0_0_1_n_n none l r (ix2 a c)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 a c) ((contrEquiv1 dot_S2048x256_S256x256_S2048x256_1_0_0_1_n_n 256 rfl rfl).symm k) = ix2 a k := funext fun x => Fin.ext (by
    match x with
    | ⟨0, _⟩ => exact lhs_proj_0 _ _
    | ⟨1, _⟩ => exact (lhs_proj_1 _ _).trans hk)
  have er : dot_S2048x256_S256x256_S2048x256_1_0_0_1_n_n.rhsIdx (ix2 a c) ((contrEquiv1 dot_S2048x256_S256x256_S2048x256_1_0_0_1_n_n 256 rfl rfl).symm k) = ix2 k c := funext fun x => Fin.ext (by
    match x with
    | ⟨0, _⟩ => exact (rhs_proj_0 _ _).trans hk
    | ⟨1, _⟩ => exact rhs_proj_1 _ _)
  rw [el, er]

/-- On the rows axis the left operand of `dot_S2048x256_S256x1_S2048x1_1_0_0_1_n_n` reads the output's row. -/
theorem lhs_score_0 (i : S2048x1.Idx) (q : dot_S2048x256_S256x1_S2048x1_1_0_0_1_n_n.contr.Idx) :
    (dot_S2048x256_S256x1_S2048x1_1_0_0_1_n_n.lhsIdx i q 0).val = (i 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl
/-- On its contracted axis the left operand reads the contraction position. -/
theorem lhs_score_1 (i : S2048x1.Idx) (q : dot_S2048x256_S256x1_S2048x1_1_0_0_1_n_n.contr.Idx) :
    (dot_S2048x256_S256x1_S2048x1_1_0_0_1_n_n.lhsIdx i q 1).val = (q ⟨0, by decide⟩).val :=
  dot_S2048x256_S256x1_S2048x1_1_0_0_1_n_n.lhsIdx_val_of_single rfl i q
/-- On its contracted axis the right operand reads the contraction position. -/
theorem rhs_score_0 (i : S2048x1.Idx) (q : dot_S2048x256_S256x1_S2048x1_1_0_0_1_n_n.contr.Idx) :
    (dot_S2048x256_S256x1_S2048x1_1_0_0_1_n_n.rhsIdx i q 0).val = (q ⟨0, by decide⟩).val :=
  dot_S2048x256_S256x1_S2048x1_1_0_0_1_n_n.rhsIdx_val_of_single rfl i q
/-- On the columns axis the right operand reads the output's column. -/
theorem rhs_score_1 (i : S2048x1.Idx) (q : dot_S2048x256_S256x1_S2048x1_1_0_0_1_n_n.contr.Idx) :
    (dot_S2048x256_S256x1_S2048x1_1_0_0_1_n_n.rhsIdx i q 1).val = (i 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl
/-- A product of a 2048-row matrix with a column into the zero accumulator, at a position: the sum over the 256 shared coordinates of the products. -/
theorem mm_score_apply (l : FVec Ideal S2048x256 .bf16) (r : FVec Ideal S256x1 .bf16) (a : Fin 2048) (c : Fin 1) :
    matmul (F := Ideal) dot_S2048x256_S256x1_S2048x1_1_0_0_1_n_n none l r (constant (F := Ideal) S2048x1 .f32 0x00000000#32) (ix2 a c)
      = ∑ k : Fin 256, l (ix2 a k) * r (ix2 k c) := by
  refine (Ideal.matmul_constant_zero_apply dot_S2048x256_S256x1_S2048x1_1_0_0_1_n_n none l r (ix2 a c)).trans ?_
  rw [← Equiv.sum_comp (contrEquiv1 dot_S2048x256_S256x1_S2048x1_1_0_0_1_n_n 256 rfl rfl).symm]
  refine Finset.sum_congr rfl fun k _ => ?_
  have hk := contrEquiv1_symm_val dot_S2048x256_S256x1_S2048x1_1_0_0_1_n_n 256 rfl rfl k
  have el : dot_S2048x256_S256x1_S2048x1_1_0_0_1_n_n.lhsIdx (ix2 a c) ((contrEquiv1 dot_S2048x256_S256x1_S2048x1_1_0_0_1_n_n 256 rfl rfl).symm k) = ix2 a k := funext fun x => Fin.ext (by
    match x with
    | ⟨0, _⟩ => exact lhs_score_0 _ _
    | ⟨1, _⟩ => exact (lhs_score_1 _ _).trans hk)
  have er : dot_S2048x256_S256x1_S2048x1_1_0_0_1_n_n.rhsIdx (ix2 a c) ((contrEquiv1 dot_S2048x256_S256x1_S2048x1_1_0_0_1_n_n 256 rfl rfl).symm k) = ix2 k c := funext fun x => Fin.ext (by
    match x with
    | ⟨0, _⟩ => exact (rhs_score_0 _ _).trans hk
    | ⟨1, _⟩ => exact rhs_score_1 _ _)
  rw [el, er]

/-- On the batch axis the left operand of `dot_S8x1x256_S8x256x256_S8x1x256_2_1_1_2_0_0` reads the output's batch coordinate. -/
theorem lhs_ctx_0 (i : S8x1x256.Idx) (q : dot_S8x1x256_S8x256x256_S8x1x256_2_1_1_2_0_0.contr.Idx) :
    (dot_S8x1x256_S8x256x256_S8x1x256_2_1_1_2_0_0.lhsIdx i q 0).val = (i 0).val := by
  unfold DotDims.lhsIdx
  rw [dif_pos (show (0 : Fin S8x1x256.rank) ∈ dot_S8x1x256_S8x256x256_S8x1x256_2_1_1_2_0_0.lhsBatch by decide)]
  rfl
/-- On its free axis the left operand reads the output's middle coordinate. -/
theorem lhs_ctx_1 (i : S8x1x256.Idx) (q : dot_S8x1x256_S8x256x256_S8x1x256_2_1_1_2_0_0.contr.Idx) :
    (dot_S8x1x256_S8x256x256_S8x1x256_2_1_1_2_0_0.lhsIdx i q 1).val = (i 1).val := by
  unfold DotDims.lhsIdx
  rw [dif_neg (show ¬(1 : Fin S8x1x256.rank) ∈ dot_S8x1x256_S8x256x256_S8x1x256_2_1_1_2_0_0.lhsBatch by decide), dif_pos (show (1 : Fin S8x1x256.rank) ∈ dot_S8x1x256_S8x256x256_S8x1x256_2_1_1_2_0_0.lhsNonContracting by decide)]
  rfl
/-- On its contracted axis the left operand reads the contraction position. -/
theorem lhs_ctx_2 (i : S8x1x256.Idx) (q : dot_S8x1x256_S8x256x256_S8x1x256_2_1_1_2_0_0.contr.Idx) :
    (dot_S8x1x256_S8x256x256_S8x1x256_2_1_1_2_0_0.lhsIdx i q 2).val = (q ⟨0, by decide⟩).val :=
  dot_S8x1x256_S8x256x256_S8x1x256_2_1_1_2_0_0.lhsIdx_val_of_single rfl i q
/-- On the batch axis the right operand reads the output's batch coordinate. -/
theorem rhs_ctx_0 (i : S8x1x256.Idx) (q : dot_S8x1x256_S8x256x256_S8x1x256_2_1_1_2_0_0.contr.Idx) :
    (dot_S8x1x256_S8x256x256_S8x1x256_2_1_1_2_0_0.rhsIdx i q 0).val = (i 0).val := by
  unfold DotDims.rhsIdx
  rw [dif_pos (show (0 : Fin S8x256x256.rank) ∈ dot_S8x1x256_S8x256x256_S8x1x256_2_1_1_2_0_0.rhsBatch by decide)]
  rfl
/-- On its contracted axis the right operand reads the contraction position. -/
theorem rhs_ctx_1 (i : S8x1x256.Idx) (q : dot_S8x1x256_S8x256x256_S8x1x256_2_1_1_2_0_0.contr.Idx) :
    (dot_S8x1x256_S8x256x256_S8x1x256_2_1_1_2_0_0.rhsIdx i q 1).val = (q ⟨0, by decide⟩).val :=
  dot_S8x1x256_S8x256x256_S8x1x256_2_1_1_2_0_0.rhsIdx_val_of_single rfl i q
/-- On its free axis the right operand reads the output's last coordinate. -/
theorem rhs_ctx_2 (i : S8x1x256.Idx) (q : dot_S8x1x256_S8x256x256_S8x1x256_2_1_1_2_0_0.contr.Idx) :
    (dot_S8x1x256_S8x256x256_S8x1x256_2_1_1_2_0_0.rhsIdx i q 2).val = (i 2).val := by
  unfold DotDims.rhsIdx
  rw [dif_neg (show ¬(2 : Fin S8x256x256.rank) ∈ dot_S8x1x256_S8x256x256_S8x1x256_2_1_1_2_0_0.rhsBatch by decide), dif_pos (show (2 : Fin S8x256x256.rank) ∈ dot_S8x1x256_S8x256x256_S8x1x256_2_1_1_2_0_0.rhsNonContracting by decide)]
  rfl
/-- The batched product of a `[8, 1, 256]` array with a `[8, 256, 256]` one over the middle axis, into the zero
    accumulator, at a position: per batch row, the sum over the 256 shared coordinates of the products. -/
theorem mm_ctx_apply (l : FVec Ideal S8x1x256 .bf16) (r : FVec Ideal S8x256x256 .bf16) (b : Fin 8) (p : Fin 1) (d : Fin 256) :
    matmul (F := Ideal) dot_S8x1x256_S8x256x256_S8x1x256_2_1_1_2_0_0 none l r (constant (F := Ideal) S8x1x256 .f32 0x00000000#32) (ix3 b p d)
      = ∑ t : Fin 256, l (ix3 b p t) * r (ix3 b t d) := by
  refine (Ideal.matmul_constant_zero_apply dot_S8x1x256_S8x256x256_S8x1x256_2_1_1_2_0_0 none l r (ix3 b p d)).trans ?_
  rw [← Equiv.sum_comp (contrEquiv1 dot_S8x1x256_S8x256x256_S8x1x256_2_1_1_2_0_0 256 rfl rfl).symm]
  refine Finset.sum_congr rfl fun k _ => ?_
  have hk := contrEquiv1_symm_val dot_S8x1x256_S8x256x256_S8x1x256_2_1_1_2_0_0 256 rfl rfl k
  have el : dot_S8x1x256_S8x256x256_S8x1x256_2_1_1_2_0_0.lhsIdx (ix3 b p d) ((contrEquiv1 dot_S8x1x256_S8x256x256_S8x1x256_2_1_1_2_0_0 256 rfl rfl).symm k) = ix3 b p k := funext fun x => Fin.ext (by
    match x with
    | ⟨0, _⟩ => exact lhs_ctx_0 _ _
    | ⟨1, _⟩ => exact lhs_ctx_1 _ _
    | ⟨2, _⟩ => exact (lhs_ctx_2 _ _).trans hk)
  have er : dot_S8x1x256_S8x256x256_S8x1x256_2_1_1_2_0_0.rhsIdx (ix3 b p d) ((contrEquiv1 dot_S8x1x256_S8x256x256_S8x1x256_2_1_1_2_0_0 256 rfl rfl).symm k) = ix3 b k d := funext fun x => Fin.ext (by
    match x with
    | ⟨0, _⟩ => exact rhs_ctx_0 _ _
    | ⟨1, _⟩ => exact (rhs_ctx_1 _ _).trans hk
    | ⟨2, _⟩ => exact rhs_ctx_2 _ _)
  rw [el, er]

/-- Row `b * 256 + t` of a 2048-row array: where position `(b, t)` of its `[8, 256, ·]` form lies in row-major order. -/
abbrev row (b : Fin 8) (t : Fin 256) : Fin 2048 := ⟨b.val * 256 + t.val, by have := b.isLt; have := t.isLt; omega⟩

section Layout
variable {α : Type}

/-- An `[8, 256, 256]` array flattened to `[2048, 256]` reads, at `(b * 256 + t, d)`, the operand at `(b, t, d)`. -/
theorem cast_flat_apply (x : S8x256x256.Idx → α) (h : S8x256x256.ShapeCasts S2048x256) (b : Fin 8) (t : Fin 256) (d : Fin 256) :
    shapeCast S2048x256 x h (ix2 (row b t) d) = x (ix3 b t d) :=
  shapeCast_apply x h _ _ (by
    rw [Shape.rowMajor_val_three, Shape.rowMajor_val_two]
    rfl)

/-- A `[2048, 256]` array cast to `[8, 256, 256]` reads, at `(b, t, u)`, the operand at `(b * 256 + t, u)`. -/
theorem cast_unflat_apply (x : S2048x256.Idx → α) (h : S2048x256.ShapeCasts S8x256x256) (b : Fin 8) (t : Fin 256) (u : Fin 256) :
    shapeCast S8x256x256 x h (ix3 b t u) = x (ix2 (row b t) u) :=
  shapeCast_apply x h _ _ (by
    rw [Shape.rowMajor_val_three, Shape.rowMajor_val_two]
    rfl)

/-- A `[2048, 1]` column cast to `[8, 256]` reads, at `(b, t)`, the operand at `(b * 256 + t, 0)`. -/
theorem cast_col_apply (x : S2048x1.Idx → α) (h : S2048x1.ShapeCasts S8x256) (b : Fin 8) (t : Fin 256) :
    shapeCast S8x256 x h (ix2 b t) = x (ix2 (row b t) (0 : Fin 1)) :=
  shapeCast_apply x h _ _ (by
    rw [Shape.rowMajor_val_two, Shape.rowMajor_val_two]
    show (b.val * 256 + t.val) * 1 + 0 = b.val * 256 + t.val
    omega)

/-- An `[8, 256]` array cast to `[8, 1, 256]` reads, at `(b, u, t)`, the operand at `(b, t)`. -/
theorem cast_mid_apply (x : S8x256.Idx → α) (h : S8x256.ShapeCasts S8x1x256) (b : Fin 8) (u : Fin 1) (t : Fin 256) :
    shapeCast S8x1x256 x h (ix3 b u t) = x (ix2 b t) :=
  shapeCast_apply x h _ _ (by
    have hu : u.val = 0 := by omega
    rw [Shape.rowMajor_val_three, Shape.rowMajor_val_two]
    show b.val * 256 + t.val = (b.val * 1 + u.val) * 256 + t.val
    rw [hu]; omega)

/-- An `[8, 1, 256]` array cast to `[8, 256]` reads, at `(b, t)`, the operand at `(b, 0, t)`. -/
theorem cast_unmid_apply (x : S8x1x256.Idx → α) (h : S8x1x256.ShapeCasts S8x256) (b : Fin 8) (t : Fin 256) :
    shapeCast S8x256 x h (ix2 b t) = x (ix3 b (0 : Fin 1) t) :=
  shapeCast_apply x h _ _ (by
    rw [Shape.rowMajor_val_three, Shape.rowMajor_val_two]
    show (b.val * 1 + 0) * 256 + t.val = b.val * 256 + t.val
    omega)

/-- A `[256]` vector cast to `[1, 1, 256]` reads, at `(p, q, u)`, the operand at `u`. -/
theorem cast_lead2_apply (x : S256.Idx → α) (h : S256.ShapeCasts S1x1x256) (p q : Fin 1) (u : Fin 256) :
    shapeCast S1x1x256 x h (ix3 p q u) = x (ix1 u) :=
  shapeCast_apply x h _ _ (by
    have hp : p.val = 0 := by omega
    have hq : q.val = 0 := by omega
    rw [Shape.rowMajor_val_three, Shape.rowMajor_val_one]
    show u.val = (p.val * 1 + q.val) * 256 + u.val
    rw [hp, hq]; omega)

/-- An `[8]` vector cast to the column `[8, 1]` reads, at `(b, u)`, the operand at `b`. -/
theorem cast_keep_apply (x : S8.Idx → α) (h : S8.ShapeCasts S8x1) (b : Fin 8) (u : Fin 1) :
    shapeCast S8x1 x h (ix2 b u) = x (ix1 b) :=
  shapeCast_apply x h _ _ (by
    have hu : u.val = 0 := by omega
    rw [Shape.rowMajor_val_two, Shape.rowMajor_val_one]
    show b.val = b.val * 1 + u.val
    rw [hu]; omega)

/-- A `[1, 1, 256]` array broadcast to `[8, 1, 256]` reads, at `(b, q, u)`, the operand at `(0, 0, u)`. -/
theorem bcast_rows3_apply (x : S1x1x256.Idx → α) (h : S1x1x256.Broadcasts S8x1x256) (b : Fin 8) (q : Fin 1) (u : Fin 256) :
    broadcastTo S8x1x256 x h (ix3 b q u) = x (ix3 (0 : Fin 1) (0 : Fin 1) u) := by
  refine broadcastTo_apply x h (ix3 b q u) (ix3 (0 : Fin 1) (0 : Fin 1) u) fun ax => ?_
  match ax with
  | ⟨0, _⟩ => rfl
  | ⟨1, _⟩ => rfl
  | ⟨2, _⟩ => rfl

/-- An `[8, 1, 256]` array broadcast to `[8, 256, 256]` reads, at `(b, t, u)`, the operand at `(b, 0, u)`. -/
theorem bcast_mid_apply (x : S8x1x256.Idx → α) (h : S8x1x256.Broadcasts S8x256x256) (b : Fin 8) (t : Fin 256) (u : Fin 256) :
    broadcastTo S8x256x256 x h (ix3 b t u) = x (ix3 b (0 : Fin 1) u) := by
  refine broadcastTo_apply x h (ix3 b t u) (ix3 b (0 : Fin 1) u) fun ax => ?_
  match ax with
  | ⟨0, _⟩ => rfl
  | ⟨1, _⟩ => rfl
  | ⟨2, _⟩ => rfl

/-- A column `[8, 1]` broadcast to `[8, 2048]` reads, at `(b, t)`, the operand at `(b, 0)`. -/
theorem bcast_col_apply (x : S8x1.Idx → α) (h : S8x1.Broadcasts S8x2048) (b : Fin 8) (t : Fin 2048) :
    broadcastTo S8x2048 x h (ix2 b t) = x (ix2 b (0 : Fin 1)) := by
  refine broadcastTo_apply x h (ix2 b t) (ix2 b (0 : Fin 1)) fun ax => ?_
  match ax with
  | ⟨0, _⟩ => rfl
  | ⟨1, _⟩ => rfl

end Layout

/-- The hyperbolic tangent of a block, at a position. -/
theorem tanh_apply {s : Shape} {φ : FTy} (x : FVec Ideal s φ) (i : s.Idx) : tanh x i = Ideal.tanh (x i) := rfl
/-- The exponential of a block, at a position. -/
theorem exp_apply {s : Shape} {φ : FTy} (x : FVec Ideal s φ) (i : s.Idx) : exp x i = Ideal.exp (x i) := rfl

/-- The one element of a one-element vector, extracted at position 0. -/
theorem extract0_apply {α : Type} (x : S1.Idx → α) (h : ∀ a, (![0] : Fin 1 → Nat) a < S1.size a) :
    extractAt ![0] x h = x (ix1 (0 : Fin 1)) :=
  congrArg x (funext fun a => match a with | ⟨0, _⟩ => rfl)

/-- Putting coordinate `t` back on the reduced axis of row `b` gives position `(b, t)`. -/
theorem lift_row (b : Fin 8) (t : Fin 2048) : reduces_S8x2048_S8.lift (ix1 b) t = ix2 b t :=
  funext fun a => Fin.ext (by
    match a with
    | ⟨0, _⟩ => rfl
    | ⟨1, _⟩ => rfl)

/-- A row's maximum: the fold of `max` from the accumulator's value over the row's 2048 positions. -/
theorem rowmax_apply (s : FVec Ideal S8x2048 .f32) (b : Fin 8) :
    multiReduction (F := Ideal) .maximumf [1] S8 s 0xFF800000#32 reduces_S8x2048_S8 (.inl rfl) rfl (ix1 b)
      = (Finset.univ : Finset (Fin 2048)).fold max (Ideal.ofBits .f32 0xFF800000#32) (fun t' => s (ix2 b t')) := by
  refine (Ideal.multiReduction_maximumf_single s _ reduces_S8x2048_S8 (.inl rfl) rfl (ix1 b)).trans ?_
  exact congrArg (Finset.fold max (Ideal.ofBits .f32 0xFF800000#32) · (Finset.univ : Finset (Fin 2048)))
    (funext fun t' => congrArg s (lift_row b t'))

/-- A row's sum: the sum over the row's 2048 positions. -/
theorem rowsum_apply (e : FVec Ideal S8x2048 .f32) (b : Fin 8) :
    multiReduction (F := Ideal) .add [1] S8 e 0x00000000#32 reduces_S8x2048_S8 (.inl rfl) rfl (ix1 b)
      = ∑ t : Fin 2048, e (ix2 b t) := by
  refine (Ideal.multiReduction_add_single e _ reduces_S8x2048_S8 (.inl rfl) rfl (ix1 b)).trans ?_
  exact Finset.sum_congr rfl fun t _ => congrArg e (lift_row b t)

/-- A score less its row's maximum, exponentiated, at a position. -/
theorem expsub_apply (s : FVec Ideal S8x2048 .f32) (b : Fin 8) (t : Fin 2048) :
    exp (subf s (broadcastTo S8x2048 (shapeCast S8x1
        (multiReduction (F := Ideal) .maximumf [1] S8 s 0xFF800000#32 reduces_S8x2048_S8 (.inl rfl) rfl)
        shapeCasts_S8_S8x1) broadcasts_S8x1_S8x2048)) (ix2 b t)
      = Ideal.exp (s (ix2 b t) - (Finset.univ : Finset (Fin 2048)).fold max (Ideal.ofBits .f32 0xFF800000#32) (fun t' => s (ix2 b t'))) := by
  rw [exp_apply, subf_apply, bcast_col_apply, cast_keep_apply, rowmax_apply]

/-- A chunk of 256 positions' raw scores for 8 batch rows: the projection of the chunk's features by
    `w1t`, plus the bias `w1b` and the hidden rows' projection by `w2t` with bias `w2b`, through tanh,
    contracted with the column `vT`, plus the scalar `vb`. -/
theorem pay3_apply (hid : FVec Ideal S8x256 .f32) (w2t : FVec Ideal S256x256 .bf16) (w2b : FVec Ideal S256 .f32)
    (w1t : FVec Ideal S256x256 .bf16) (w1b : FVec Ideal S256 .f32) (vT : FVec Ideal S256x1 .bf16) (vb : FVec Ideal S1 .f32)
    (fc : FVec Ideal S8x256x256 .f32) (b : Fin 8) (t : Fin 256) :
    k0_pay3 (F := Ideal) hid w2t w2b w1t w1b vT vb fc (ix2 b t)
      = (∑ u : Fin 256, Ideal.tanh ((∑ d : Fin 256, fc (ix3 b t d) * w1t (ix2 d u))
            + (w1b (ix1 u) + ((∑ d : Fin 256, hid (ix2 b d) * w2t (ix2 d u)) + w2b (ix1 u)))) * vT (ix2 u 0))
          + vb (ix1 0) := by
  unfold k0_pay3
  simp only [shapeCast_self, addf_apply, broadcast_apply, cast_col_apply, mm_score_apply, cast_flat_apply, truncf_apply,
    tanh_apply, cast_unflat_apply, mm_proj_apply, bcast_mid_apply, bcast_rows3_apply, cast_lead2_apply, cast_mid_apply,
    mm_hid_apply, broadcastTo_1b_ab_apply, shapeCast_a_1a_apply, extract0_apply]

/-- The softmax of each of 8 rows of 2048 scores: the exponential of the score less the row's maximum
    (folded from the word of -∞), over the sum of those exponentials along the row. -/
theorem pay4_apply (s : FVec Ideal S8x2048 .f32) (b : Fin 8) (t : Fin 2048) :
    k0_pay4 (F := Ideal) s (ix2 b t)
      = Ideal.div
          (Ideal.exp (s (ix2 b t) - (Finset.univ : Finset (Fin 2048)).fold max (Ideal.ofBits .f32 0xFF800000#32) (fun t' => s (ix2 b t'))))
          (∑ t'' : Fin 2048, Ideal.exp (s (ix2 b t'') - (Finset.univ : Finset (Fin 2048)).fold max (Ideal.ofBits .f32 0xFF800000#32) (fun t' => s (ix2 b t')))) := by
  unfold k0_pay4
  simp only [divf_apply]
  rw [expsub_apply, bcast_col_apply, cast_keep_apply, rowsum_apply]
  exact congrArg (Ideal.div _) (Finset.sum_congr rfl fun t'' _ => expsub_apply s b t'')

/-- One accumulation step of the context: the accumulator plus, for each batch row, the chunk's
    attention weights contracted with the chunk's features over the chunk's 256 positions. -/
theorem pay2_apply (fc : FVec Ideal S8x256x256 .f32) (ac : FVec Ideal S8x256 .f32) (acc : FVec Ideal S8x256 .f32)
    (b : Fin 8) (d : Fin 256) :
    k0_pay2 (F := Ideal) fc ac acc (ix2 b d) = acc (ix2 b d) + ∑ t : Fin 256, ac (ix2 b t) * fc (ix3 b t d) := by
  unfold k0_pay2
  simp only [shapeCast_self, addf_apply, cast_unmid_apply, mm_ctx_apply, cast_mid_apply, truncf_apply]

/-- The context accumulator starts from zero. -/
theorem pay1_apply (i : S8x256.Idx) : k0_pay1 (F := Ideal) (k0_pay5 (F := Ideal)) i = 0 := by
  unfold k0_pay1 k0_pay5
  rw [shapeCast_self]
  exact Ideal.ofBits_zero_f32

end Cert.KernelIdeal.PayValue

end
-- ==== Proof.BlockValue.lean ====
/-
  The two output blocks of one grid point, at the extended reals, as functions of the point's eight input
  blocks: the attention block [8, 2048] is the row softmax of the additive scores of the features block,
  and the context block [8, 256] is the attention-weighted sum of the features block over its 2048 positions.
-/
import proofs.«415179_j73091753443736_3_alg».proof.Proof.KernelIdealFrame
import proofs.«415179_j73091753443736_3_alg».proof.Proof.CtxLoop
import proofs.«415179_j73091753443736_3_alg».proof.Proof.PayValue

set_option maxRecDepth 16384

noncomputable section

namespace Cert.KernelIdeal.BlockValue

open Cert.KernelIdeal Cert.KernelIdeal.Gen Cert.KernelIdeal.LoopValue
open Idealize.ShloMosaic Idealize.ShloMosaic.TcCoe Idealize.ShloMosaic.ValueIdx
open Idealize.SL Idealize.SL.Sem

section Generic

variable {F : FTy → Type} [FloatOps F]

/-- The zero offset of a rank-1 buffer, however spelt. -/
theorem zero1 : (![0] : Fin 1 → Nat) = fun _ => 0 := by
  funext a; match a with | ⟨0, _⟩ => rfl

/-- A whole staging buffer holding `X`, loaded whole, reads `X`. -/
theorem readAt_whole_unread {S : Shape} {e : EltTy} (mr : Memref sig .tc .vmem S e) (h : mr.IsWhole)
    (X : S.Idx → Elt F e) {off : Fin S.rank → Nat} (hz : off = fun _ => 0) (inb : ∀ a, off a + S.size a ≤ S.size a) :
    View.readAt (Elt F) mr.view (Rect.unit off S.size inb).toLoadRect (h.unread X) = X := by
  rw [View.readAt_eq_ld, h.read_unread, View.ld_unit_zero hz]

/-- One store over a whole buffer, read back through any view of the shape, is its payload. -/
theorem read_whole_piece {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero hz inb y⟩),
    View.canon_unit_zero hz]

/-- The body's run leaves ONE piece in the attention output's buffer: the softmax payload of the score
    buffer, stored over the whole block. -/
theorem pieces9 (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : Vec F S8x2048x256 .f32) (x1 : Vec F S8x256 .f32) (x2 : Vec F S256x256 .bf16) (x3 : Vec F S256 .f32) (x4 : Vec F S256x256 .bf16) (x5 : Vec F S256 .f32) (x6 : Vec F S256x1 .bf16) (x7 : Vec F S1 .f32) :
    (GenP.kernelRun0_A (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 = [(⟨Rect.unit (s := S8x2048) ![0, 0] S8x2048.size inb_S8x2048_S8x2048_0_0, k0_pay4 (scoreOf (View.readAt (Elt F) arg2.view (Rect.unit (s := S8x256) ![0, 0] S8x256.size inb_S8x256_S8x256_0_0).toLoadRect (harg2.unread x1)) (View.readAt (Elt F) arg5.view (Rect.unit (s := S256x256) ![0, 0] S256x256.size inb_S256x256_S256x256_0_0).toLoadRect (harg5.unread x4)) (View.readAt (Elt F) arg6.view (Rect.unit (s := S256) ![0] S256.size inb_S256_S256_0).toLoadRect (harg6.unread x5)) (View.readAt (Elt F) arg3.view (Rect.unit (s := S256x256) ![0, 0] S256x256.size inb_S256x256_S256x256_0_0).toLoadRect (harg3.unread x2)) (View.readAt (Elt F) arg4.view (Rect.unit (s := S256) ![0] S256.size inb_S256_S256_0).toLoadRect (harg4.unread x3)) (View.readAt (Elt F) arg7.view (Rect.unit (s := S256x1) ![0, 0] S256x1.size inb_S256x1_S256x1_0_0).toLoadRect (harg7.unread x6)) (View.readAt (Elt F) arg8.view (Rect.unit (s := S1) ![0] S1.size inb_S1_S1_0).toLoadRect (harg8.unread x7)) arg1 (harg1.unread x0))⟩ : View.Piece (Elt F) S8x2048 .f32)] := by
  unfold GenP.kernelRun0_A
  rfl

/-- … and ONE piece in the context output's buffer: the accumulator read back whole after the second loop,
    which started from the zero fill and read the attention block just stored. -/
theorem pieces8 (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : Vec F S8x2048x256 .f32) (x1 : Vec F S8x256 .f32) (x2 : Vec F S256x256 .bf16) (x3 : Vec F S256 .f32) (x4 : Vec F S256x256 .bf16) (x5 : Vec F S256 .f32) (x6 : Vec F S256x1 .bf16) (x7 : Vec F S1 .f32) :
    (GenP.kernelRun0_A (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7).1 = [(⟨Rect.unit (s := S8x256) ![0, 0] S8x256.size inb_S8x256_S8x256_0_0, View.readAt (Elt F) arg12.view (Rect.unit (s := S8x256) ![0, 0] S8x256.size inb_S8x256_S8x256_0_0).toLoadRect (arg12.view.writes (Elt F) arg12.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (arg10.view.writes (Elt F) arg10.view.junk [(⟨Rect.unit (s := S8x2048) ![0, 0] S8x2048.size inb_S8x2048_S8x2048_0_0, k0_pay4 (scoreOf (View.readAt (Elt F) arg2.view (Rect.unit (s := S8x256) ![0, 0] S8x256.size inb_S8x256_S8x256_0_0).toLoadRect (harg2.unread x1)) (View.readAt (Elt F) arg5.view (Rect.unit (s := S256x256) ![0, 0] S256x256.size inb_S256x256_S256x256_0_0).toLoadRect (harg5.unread x4)) (View.readAt (Elt F) arg6.view (Rect.unit (s := S256) ![0] S256.size inb_S256_S256_0).toLoadRect (harg6.unread x5)) (View.readAt (Elt F) arg3.view (Rect.unit (s := S256x256) ![0, 0] S256x256.size inb_S256x256_S256x256_0_0).toLoadRect (harg3.unread x2)) (View.readAt (Elt F) arg4.view (Rect.unit (s := S256) ![0] S256.size inb_S256_S256_0).toLoadRect (harg4.unread x3)) (View.readAt (Elt F) arg7.view (Rect.unit (s := S256x1) ![0, 0] S256x1.size inb_S256x1_S256x1_0_0).toLoadRect (harg7.unread x6)) (View.readAt (Elt F) arg8.view (Rect.unit (s := S1) ![0] S1.size inb_S1_S1_0).toLoadRect (harg8.unread x7)) arg1 (harg1.unread x0))⟩ : View.Piece (Elt F) S8x2048 .f32)]) (arg12.view.writes (Elt F) arg12.view.junk [(⟨Rect.unit (s := S8x256) ![0, 0] S8x256.size inb_S8x256_S8x256_0_0, k0_pay1 (k0_pay5 (F := F))⟩ : View.Piece (Elt F) S8x256 .f32)]) (Scf.trips k0_t2_loop.lb k0_t2_loop.ub k0_t2_loop.st)) ++ [(⟨Rect.unit (s := S8x256) ![0, 0] S8x256.size inb_S8x256_S8x256_0_0, k0_pay1 (k0_pay5 (F := F))⟩ : View.Piece (Elt F) S8x256 .f32)]))⟩ : View.Piece (Elt F) S8x256 .f32)] := by
  unfold GenP.kernelRun0_A
  rfl

/-- The loop-invariant operands, loaded whole from staging buffers that hold `x1 … x7`, are `x1 … x7`. -/
theorem score_operands (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : Vec F S8x2048x256 .f32) (x1 : Vec F S8x256 .f32) (x2 : Vec F S256x256 .bf16) (x3 : Vec F S256 .f32) (x4 : Vec F S256x256 .bf16) (x5 : Vec F S256 .f32) (x6 : Vec F S256x1 .bf16) (x7 : Vec F S1 .f32) :
    (scoreOf (View.readAt (Elt F) arg2.view (Rect.unit (s := S8x256) ![0, 0] S8x256.size inb_S8x256_S8x256_0_0).toLoadRect (harg2.unread x1)) (View.readAt (Elt F) arg5.view (Rect.unit (s := S256x256) ![0, 0] S256x256.size inb_S256x256_S256x256_0_0).toLoadRect (harg5.unread x4)) (View.readAt (Elt F) arg6.view (Rect.unit (s := S256) ![0] S256.size inb_S256_S256_0).toLoadRect (harg6.unread x5)) (View.readAt (Elt F) arg3.view (Rect.unit (s := S256x256) ![0, 0] S256x256.size inb_S256x256_S256x256_0_0).toLoadRect (harg3.unread x2)) (View.readAt (Elt F) arg4.view (Rect.unit (s := S256) ![0] S256.size inb_S256_S256_0).toLoadRect (harg4.unread x3)) (View.readAt (Elt F) arg7.view (Rect.unit (s := S256x1) ![0, 0] S256x1.size inb_S256x1_S256x1_0_0).toLoadRect (harg7.unread x6)) (View.readAt (Elt F) arg8.view (Rect.unit (s := S1) ![0] S1.size inb_S1_S1_0).toLoadRect (harg8.unread x7)) arg1 (harg1.unread x0)) = (scoreOf x1 x4 x5 x2 x3 x6 x7 arg1 (harg1.unread x0)) := by
  rw [readAt_whole_unread arg2 harg2 x1 zero2 inb_S8x256_S8x256_0_0,
    readAt_whole_unread arg5 harg5 x4 zero2 inb_S256x256_S256x256_0_0,
    readAt_whole_unread arg6 harg6 x5 zero1 inb_S256_S256_0,
    readAt_whole_unread arg3 harg3 x2 zero2 inb_S256x256_S256x256_0_0,
    readAt_whole_unread arg4 harg4 x3 zero1 inb_S256_S256_0,
    readAt_whole_unread arg7 harg7 x6 zero2 inb_S256x1_S256x1_0_0,
    readAt_whole_unread arg8 harg8 x7 zero1 inb_S1_S1_0]

/-- The attention output's block: the softmax payload of the score buffer. -/
theorem out9_eq (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : Vec F S8x2048x256 .f32) (x1 : Vec F S8x256 .f32) (x2 : Vec F S256x256 .bf16) (x3 : Vec F S256 .f32) (x4 : Vec F S256x256 .bf16) (x5 : Vec F S256 .f32) (x6 : Vec F S256x1 .bf16) (x7 : Vec F S1 .f32) :
    GenP.out0_A_9 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay4 (scoreOf x1 x4 x5 x2 x3 x6 x7 arg1 (harg1.unread x0)) := by
  unfold GenP.out0_A_9
  rw [pieces9, score_operands c i arg1 harg1 arg2 harg2 arg3 harg3 arg4 harg4 arg5 harg5 arg6 harg6 arg7 harg7 arg8 harg8 arg9 harg9 arg10 harg10 arg11 harg11 arg12 harg12 x0 x1 x2 x3 x4 x5 x6 x7]
  exact read_whole_piece _ _ zero2 inb_S8x2048_S8x2048_0_0 _

/-- The context output's block: the accumulator after the eight trips, from zero, over the attention block. -/
theorem out8_eq (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : Vec F S8x2048x256 .f32) (x1 : Vec F S8x256 .f32) (x2 : Vec F S256x256 .bf16) (x3 : Vec F S256 .f32) (x4 : Vec F S256x256 .bf16) (x5 : Vec F S256 .f32) (x6 : Vec F S256x1 .bf16) (x7 : Vec F S1 .f32) :
    GenP.out0_A_8 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7
      = ctxAcc arg1 (harg1.unread x0) arg10 (arg10.view.writes (Elt F) arg10.view.junk [(⟨Rect.unit (s := S8x2048) ![0, 0] S8x2048.size inb_S8x2048_S8x2048_0_0, k0_pay4 (scoreOf x1 x4 x5 x2 x3 x6 x7 arg1 (harg1.unread x0))⟩ : View.Piece (Elt F) S8x2048 .f32)])
          (k0_pay1 (k0_pay5 (F := F))) k0_t2_loop.trips := by
  unfold GenP.out0_A_8
  rw [pieces8, score_operands c i arg1 harg1 arg2 harg2 arg3 harg3 arg4 harg4 arg5 harg5 arg6 harg6 arg7 harg7 arg8 harg8 arg9 harg9 arg10 harg10 arg11 harg11 arg12 harg12 x0 x1 x2 x3 x4 x5 x6 x7]
  rw [read_whole_piece _ _ zero2 inb_S8x256_S8x256_0_0 _, View.writes_append, ctx_read,
    read_whole_piece _ _ zero2 inb_S8x256_S8x256_0_0 _]

end Generic

/-- The raw score of position `t` of row `b` of a block: `x0` the features [8,2048,256], `x1` the hidden rows
    [8,256], `x2` / `x4` the two weights TRANSPOSED [256(d),256(u)], `x3` / `x5` their biases, `x6` the score
    vector as a column [256,1], `x7` its bias. -/
def scoreBlk (x0 : FVec Ideal S8x2048x256 .f32) (x1 : FVec Ideal S8x256 .f32) (x2 : FVec Ideal S256x256 .bf16)
    (x3 : FVec Ideal S256 .f32) (x4 : FVec Ideal S256x256 .bf16) (x5 : FVec Ideal S256 .f32)
    (x6 : FVec Ideal S256x1 .bf16) (x7 : FVec Ideal S1 .f32) (b : Fin 8) (t : Fin 2048) : EReal :=
  (∑ u : Fin 256, Ideal.tanh ((∑ d : Fin 256, x0 (ix3 b t d) * x2 (ix2 d u))
      + (x3 (ix1 u) + ((∑ d : Fin 256, x1 (ix2 b d) * x4 (ix2 d u)) + x5 (ix1 u)))) * x6 (ix2 u 0))
    + x7 (ix1 0)

/-- The maximal score of row `b`, folded from the word of -∞. -/
def maxBlk (x0 : FVec Ideal S8x2048x256 .f32) (x1 : FVec Ideal S8x256 .f32) (x2 : FVec Ideal S256x256 .bf16)
    (x3 : FVec Ideal S256 .f32) (x4 : FVec Ideal S256x256 .bf16) (x5 : FVec Ideal S256 .f32)
    (x6 : FVec Ideal S256x1 .bf16) (x7 : FVec Ideal S1 .f32) (b : Fin 8) : EReal :=
  (Finset.univ : Finset (Fin 2048)).fold max (Ideal.ofBits .f32 0xFF800000#32) (fun t => scoreBlk x0 x1 x2 x3 x4 x5 x6 x7 b t)

/-- The attention weight of position `t` of row `b`: the softmax of the row's scores. -/
def attnBlk (x0 : FVec Ideal S8x2048x256 .f32) (x1 : FVec Ideal S8x256 .f32) (x2 : FVec Ideal S256x256 .bf16)
    (x3 : FVec Ideal S256 .f32) (x4 : FVec Ideal S256x256 .bf16) (x5 : FVec Ideal S256 .f32)
    (x6 : FVec Ideal S256x1 .bf16) (x7 : FVec Ideal S1 .f32) (b : Fin 8) (t : Fin 2048) : EReal :=
  Ideal.div (Ideal.exp (scoreBlk x0 x1 x2 x3 x4 x5 x6 x7 b t - maxBlk x0 x1 x2 x3 x4 x5 x6 x7 b))
    (∑ t' : Fin 2048, Ideal.exp (scoreBlk x0 x1 x2 x3 x4 x5 x6 x7 b t' - maxBlk x0 x1 x2 x3 x4 x5 x6 x7 b))

/-- The context of row `b` at feature `d`: the attention-weighted sum of the features over the positions. -/
def ctxBlk (x0 : FVec Ideal S8x2048x256 .f32) (x1 : FVec Ideal S8x256 .f32) (x2 : FVec Ideal S256x256 .bf16)
    (x3 : FVec Ideal S256 .f32) (x4 : FVec Ideal S256x256 .bf16) (x5 : FVec Ideal S256 .f32)
    (x6 : FVec Ideal S256x1 .bf16) (x7 : FVec Ideal S1 .f32) (b : Fin 8) (d : Fin 256) : EReal :=
  ∑ t : Fin 2048, attnBlk x0 x1 x2 x3 x4 x5 x6 x7 b t * x0 (ix3 b t d)

section AtIdeal

/-- The features' chunk of a score-loop trip, at an index: row `256 k + t` of the block. -/
theorem featChunk_apply (arg1 : Memref sig .tc .vmem S8x2048x256 .f32) (harg1 : arg1.IsWhole)
    (x0 : FVec Ideal S8x2048x256 .f32) (k : Fin k0_t1_loop.trips) (b : Fin 8) (t : Fin 256) (d : Fin 256)
    (hk : 256 * k.val + t.val < 2048) :
    featChunkAt (F := Ideal) arg1 (harg1.unread x0) k (ix3 b t d) = x0 (ix3 b (⟨256 * k.val + t.val, hk⟩ : Fin 2048) d) := by
  unfold featChunkAt
  rw [View.readAt_eq_ld, harg1.read_unread]
  have e := k0_off1_eq k
  have e0 : k0_off1 k 0 = 0 := by rw [e]; rfl
  have e1 : k0_off1 k 1 = 256 * k.val := by rw [e]; rfl
  have e2 : k0_off1 k 2 = 0 := by rw [e]; rfl
  refine congrArg x0 (funext fun a => Fin.ext ?_)
  match a with
  | ⟨0, _⟩ => show k0_off1 k 0 + 1 * b.val = b.val; omega
  | ⟨1, _⟩ => show k0_off1 k 1 + 1 * t.val = 256 * k.val + t.val; omega
  | ⟨2, _⟩ => show k0_off1 k 2 + 1 * d.val = d.val; omega

/-- The features' chunk of a context-loop trip, at an index. -/
theorem featChunk2_apply (arg1 : Memref sig .tc .vmem S8x2048x256 .f32) (harg1 : arg1.IsWhole)
    (x0 : FVec Ideal S8x2048x256 .f32) (k : Fin k0_t2_loop.trips) (b : Fin 8) (t : Fin 256) (d : Fin 256)
    (hk : 256 * k.val + t.val < 2048) :
    featChunkAt2 (F := Ideal) arg1 (harg1.unread x0) k (ix3 b t d) = x0 (ix3 b (⟨256 * k.val + t.val, hk⟩ : Fin 2048) d) := by
  unfold featChunkAt2
  rw [View.readAt_eq_ld, harg1.read_unread]
  have e := k0_off3_eq k
  have e0 : k0_off3 k 0 = 0 := by rw [e]; rfl
  have e1 : k0_off3 k 1 = 256 * k.val := by rw [e]; rfl
  have e2 : k0_off3 k 2 = 0 := by rw [e]; rfl
  refine congrArg x0 (funext fun a => Fin.ext ?_)
  match a with
  | ⟨0, _⟩ => show k0_off3 k 0 + 1 * b.val = b.val; omega
  | ⟨1, _⟩ => show k0_off3 k 1 + 1 * t.val = 256 * k.val + t.val; omega
  | ⟨2, _⟩ => show k0_off3 k 2 + 1 * d.val = d.val; omega

/-- The attention weights' chunk of a context-loop trip, at an index: column `256 k + t` of the block `A`
    the attention output's buffer holds. -/
theorem attnChunk_apply (arg10 : Memref sig .tc .vmem S8x2048 .f32) (A : FVec Ideal S8x2048 .f32)
    (k : Fin k0_t2_loop.trips) (b : Fin 8) (t : Fin 256) (hk : 256 * k.val + t.val < 2048) :
    attnChunkAt (F := Ideal) arg10 (arg10.view.writes (Elt Ideal) arg10.view.junk [(⟨Rect.unit (s := S8x2048) ![0, 0] S8x2048.size inb_S8x2048_S8x2048_0_0, A⟩ : View.Piece (Elt Ideal) S8x2048 .f32)]) k (ix2 b t)
      = A (ix2 b (⟨256 * k.val + t.val, hk⟩ : Fin 2048)) := by
  unfold attnChunkAt
  rw [View.readAt_eq_ld, read_whole_piece (F := Ideal) arg10.view arg10.view.junk zero2 inb_S8x2048_S8x2048_0_0 _]
  have e := k0_off4_eq k
  have e0 : k0_off4 k 0 = 0 := by rw [e]; rfl
  have e1 : k0_off4 k 1 = 256 * k.val := by rw [e]; rfl
  refine congrArg A (funext fun a => Fin.ext ?_)
  match a with
  | ⟨0, _⟩ => show k0_off4 k 0 + 1 * b.val = b.val; omega
  | ⟨1, _⟩ => show k0_off4 k 1 + 1 * t.val = 256 * k.val + t.val; omega

/-- The score buffer at an index is the block's score. -/
theorem score_apply (arg1 : Memref sig .tc .vmem S8x2048x256 .f32) (harg1 : arg1.IsWhole) (x0 : FVec Ideal S8x2048x256 .f32) (x1 : FVec Ideal S8x256 .f32) (x2 : FVec Ideal S256x256 .bf16) (x3 : FVec Ideal S256 .f32) (x4 : FVec Ideal S256x256 .bf16) (x5 : FVec Ideal S256 .f32) (x6 : FVec Ideal S256x1 .bf16) (x7 : FVec Ideal S1 .f32)
    (b : Fin 8) (t : Fin 2048) :
    scoreOf (F := Ideal) x1 x4 x5 x2 x3 x6 x7 arg1 (harg1.unread x0) (ix2 b t) = scoreBlk x0 x1 x2 x3 x4 x5 x6 x7 b t := by
  have hlt : t.val % 256 < 256 := Nat.mod_lt _ (by decide)
  have ht : t.val < 2048 := t.isLt
  show k0_pay3 (F := Ideal) x1 x4 x5 x2 x3 x6 x7 (featChunkAt arg1 (harg1.unread x0) (colChunk (ix2 b t)))
      (ix2 (⟨b.val, b.isLt⟩ : Fin 8) (⟨t.val % 256, hlt⟩ : Fin 256)) = _
  rw [Cert.KernelIdeal.PayValue.pay3_apply]
  have hfc : ∀ d : Fin 256, featChunkAt (F := Ideal) arg1 (harg1.unread x0) (colChunk (ix2 b t))
      (ix3 (⟨b.val, b.isLt⟩ : Fin 8) (⟨t.val % 256, hlt⟩ : Fin 256) d) = x0 (ix3 b t d) := by
    intro d
    refine (featChunk_apply arg1 harg1 x0 (colChunk (ix2 b t)) _ _ d (by
      show 256 * (t.val / 256) + t.val % 256 < 2048; omega)).trans ?_
    refine congrArg x0 (funext fun a => Fin.ext ?_)
    match a with
    | ⟨0, _⟩ => rfl
    | ⟨1, _⟩ => show 256 * (t.val / 256) + t.val % 256 = t.val; omega
    | ⟨2, _⟩ => rfl
  simp only [hfc]
  rfl

/-- The softmax payload of the score buffer at an index is the block's attention weight. -/
theorem attn_apply (arg1 : Memref sig .tc .vmem S8x2048x256 .f32) (harg1 : arg1.IsWhole) (x0 : FVec Ideal S8x2048x256 .f32) (x1 : FVec Ideal S8x256 .f32) (x2 : FVec Ideal S256x256 .bf16) (x3 : FVec Ideal S256 .f32) (x4 : FVec Ideal S256x256 .bf16) (x5 : FVec Ideal S256 .f32) (x6 : FVec Ideal S256x1 .bf16) (x7 : FVec Ideal S1 .f32)
    (b : Fin 8) (t : Fin 2048) :
    k0_pay4 (F := Ideal) (scoreOf (F := Ideal) x1 x4 x5 x2 x3 x6 x7 arg1 (harg1.unread x0)) (ix2 b t)
      = attnBlk x0 x1 x2 x3 x4 x5 x6 x7 b t := by
  rw [Cert.KernelIdeal.PayValue.pay4_apply]
  unfold attnBlk maxBlk
  simp only [score_apply arg1 harg1 x0 x1 x2 x3 x4 x5 x6 x7]

/-- The accumulator after `n` trips, at an index: the sum over the first 256 n positions. -/
theorem ctxAcc_apply (arg1 : Memref sig .tc .vmem S8x2048x256 .f32) (harg1 : arg1.IsWhole)
    (arg10 : Memref sig .tc .vmem S8x2048 .f32) (x0 : FVec Ideal S8x2048x256 .f32) (A : FVec Ideal S8x2048 .f32)
    (b : Fin 8) (d : Fin 256) :
    ∀ n, n ≤ k0_t2_loop.trips →
      ctxAcc (F := Ideal) arg1 (harg1.unread x0) arg10 (arg10.view.writes (Elt Ideal) arg10.view.junk [(⟨Rect.unit (s := S8x2048) ![0, 0] S8x2048.size inb_S8x2048_S8x2048_0_0, A⟩ : View.Piece (Elt Ideal) S8x2048 .f32)])
          (k0_pay1 (k0_pay5 (F := Ideal))) n (ix2 b d)
        = ∑ s ∈ Finset.range (256 * n), (fun s : ℕ => if h : s < 2048 then A (ix2 b (⟨s, h⟩ : Fin 2048)) * x0 (ix3 b (⟨s, h⟩ : Fin 2048) d) else (0 : EReal)) s := by
  intro n
  induction n with
  | zero =>
    intro _
    show k0_pay1 (F := Ideal) (k0_pay5 (F := Ideal)) (ix2 b d) = _
    rw [Cert.KernelIdeal.PayValue.pay1_apply]
    simp
  | succ k ih =>
    intro hk
    have hk' : k < k0_t2_loop.trips := hk
    have hk8 : k < 8 := by rw [← trips2_eq]; exact hk'
    rw [ctxAcc, dif_pos hk', Cert.KernelIdeal.PayValue.pay2_apply, ih (Nat.le_of_lt hk'),
      show 256 * (k + 1) = 256 * k + 256 by ring, Finset.sum_range_add,
      ← Fin.sum_univ_eq_sum_range (fun x => (fun s : ℕ => if h : s < 2048 then A (ix2 b (⟨s, h⟩ : Fin 2048)) * x0 (ix3 b (⟨s, h⟩ : Fin 2048) d) else (0 : EReal)) (256 * k + x)) 256]
    refine congrArg _ (Finset.sum_congr rfl fun t _ => ?_)
    have ht : t.val < 256 := t.isLt
    have hlt : 256 * k + t.val < 2048 := by omega
    dsimp only
    rw [dif_pos hlt]
    rw [attnChunk_apply arg10 A ⟨k, hk'⟩ b t hlt, featChunk2_apply arg1 harg1 x0 ⟨k, hk'⟩ b t d hlt]

/-- What the body leaves in the attention output's staging buffer, at an index. -/
theorem out9_apply (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : FVec Ideal S8x2048x256 .f32) (x1 : FVec Ideal S8x256 .f32) (x2 : FVec Ideal S256x256 .bf16) (x3 : FVec Ideal S256 .f32) (x4 : FVec Ideal S256x256 .bf16) (x5 : FVec Ideal S256 .f32) (x6 : FVec Ideal S256x1 .bf16) (x7 : FVec Ideal S1 .f32)
    (b : Fin 8) (t : Fin 2048) :
    GenP.out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 b t) = attnBlk x0 x1 x2 x3 x4 x5 x6 x7 b t := by
  rw [out9_eq]
  exact attn_apply arg1 harg1 x0 x1 x2 x3 x4 x5 x6 x7 b t

/-- What the body leaves in the context output's staging buffer, at an index. -/
theorem out8_apply (c : Dev nD) (i : grid0.Coords) (arg1 : Memref sig .tc .vmem S8x2048x256 .f32) (harg1 : arg1.IsWhole) (arg2 : Memref sig .tc .vmem S8x256 .f32) (harg2 : arg2.IsWhole) (arg3 : Memref sig .tc .vmem S256x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x1 .bf16) (harg7 : arg7.IsWhole) (arg8 : Memref sig .tc .vmem S1 .f32) (harg8 : arg8.IsWhole) (arg9 : Memref sig .tc .vmem S8x256 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S8x256 .f32) (harg12 : arg12.IsWhole)
    (x0 : FVec Ideal S8x2048x256 .f32) (x1 : FVec Ideal S8x256 .f32) (x2 : FVec Ideal S256x256 .bf16) (x3 : FVec Ideal S256 .f32) (x4 : FVec Ideal S256x256 .bf16) (x5 : FVec Ideal S256 .f32) (x6 : FVec Ideal S256x1 .bf16) (x7 : FVec Ideal S1 .f32)
    (b : Fin 8) (d : Fin 256) :
    GenP.out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 b d) = ctxBlk x0 x1 x2 x3 x4 x5 x6 x7 b d := by
  rw [out8_eq]
  rw [ctxAcc_apply arg1 harg1 arg10 x0 _ b d _ (Nat.le_refl _), trips2_eq]
  unfold ctxBlk
  rw [show 256 * 8 = 2048 by norm_num, ← Fin.sum_univ_eq_sum_range _ 2048]
  refine Finset.sum_congr rfl fun t _ => ?_
  rw [dif_pos t.isLt]
  exact congrArg (· * _) (attn_apply arg1 harg1 x0 x1 x2 x3 x4 x5 x6 x7 b t)

end AtIdeal

end Cert.KernelIdeal.BlockValue

end
-- ==== Proof.ArrayValue.lean ====
/-
  The whole run of the idealized kernel program, with both results named: the context array [64, 256]
  ends at the specification's `ctxOut` of the eight argument arrays, and the attention result
  [64, 2048, 1] — the attention array [64, 2048] with a unit axis appended by the host — at `attnOut`.

  The kernel runs over eight grid points; point `t` computes batch rows 8t .. 8t+7. The road: the arrays the host
  prepares (the two weights and the score vector, transposed) read at an index; one row of a block's functions
  against one row of the arrays' functions, given that the blocks read the arrays where the windows say; each
  input block at a point read at an index; so what a point writes back is its block of ONE function of the
  arguments; the eight blocks cover each result array; hence each array after the last point is that function;
  the host's final broadcast appends the unit axis.
-/
import proofs.«415179_j73091753443736_3_alg».proof.Proof.BlockValue
import proofs.«415179_j73091753443736_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The three arrays the host computes before the kernel: the weights transposed -/

/-- The first weight as the kernel finds it: the argument [256(u), 256(d)] transposed to [256(d), 256(u)]
    (the narrowing format change is the identity over the extended reals). -/
theorem V_v1 (c : Dev nD) :
    (V m c main_v1 : S256x256.Idx → EReal)
      = (truncf (F := Ideal) .bf16 (transpose S256x256 [1, 0] (m ((c.tc : Thread nD τ).loc main_arg2) : FVec Ideal S256x256 .f32) transposes_S256x256_S256x256_1_0) bitsLt_bf16_f32 : FVec Ideal S256x256 .bf16) := by
  show StableHlo.after hostOps0 (fun b => m (c, b)) (Proc.devRef .tc main_v1) = _
  after_results

/-- The second weight as the kernel finds it: the argument transposed. -/
theorem V_v3 (c : Dev nD) :
    (V m c main_v3 : S256x256.Idx → EReal)
      = (truncf (F := Ideal) .bf16 (transpose S256x256 [1, 0] (m ((c.tc : Thread nD τ).loc main_arg4) : FVec Ideal S256x256 .f32) transposes_S256x256_S256x256_1_0) bitsLt_bf16_f32 : FVec Ideal S256x256 .bf16) := by
  show StableHlo.after hostOps0 (fun b => m (c, b)) (Proc.devRef .tc main_v3) = _
  after_results

/-- The score vector as the kernel finds it: the row [1, 256] transposed to a column [256, 1]. -/
theorem V_v5 (c : Dev nD) :
    (V m c main_v5 : S256x1.Idx → EReal)
      = (truncf (F := Ideal) .bf16 (transpose S256x1 [1, 0] (m ((c.tc : Thread nD τ).loc main_arg6) : FVec Ideal S1x256 .f32) transposes_S1x256_S256x1_1_0) bitsLt_bf16_f32 : FVec Ideal S256x1 .bf16) := by
  show StableHlo.after hostOps0 (fun b => m (c, b)) (Proc.devRef .tc main_v5) = _
  after_results

/-- A transposed square matrix read at (d, u) is the matrix at (u, d). -/
theorem transpose_sq_apply (x : FVec Ideal S256x256 .f32) (d u : Fin 256) :
    (truncf (F := Ideal) .bf16 (transpose S256x256 [1, 0] x transposes_S256x256_S256x256_1_0) bitsLt_bf16_f32 : FVec Ideal S256x256 .bf16) (ix2 d u) = x (ix2 u d) := by
  rw [truncf_apply]
  refine transpose_apply [1, 0] x transposes_S256x256_S256x256_1_0 (ix2 d u) (ix2 u d) fun b => ?_
  match b with
  | ⟨0, _⟩ => rfl
  | ⟨1, _⟩ => rfl

/-- A row [1, 256] transposed to a column read at (u, 0) is the row at (0, u). -/
theorem transpose_row_apply (x : FVec Ideal S1x256 .f32) (u : Fin 256) :
    (truncf (F := Ideal) .bf16 (transpose S256x1 [1, 0] x transposes_S1x256_S256x1_1_0) bitsLt_bf16_f32 : FVec Ideal S256x1 .bf16) (ix2 u 0) = x (ix2 0 u) := by
  rw [truncf_apply]
  refine transpose_apply [1, 0] x transposes_S1x256_S256x1_1_0 (ix2 u 0) (ix2 0 u) fun b => ?_
  match b with
  | ⟨0, _⟩ => rfl
  | ⟨1, _⟩ => rfl

/-! ## One row of a block against one row of the arrays

  Batch rows are independent: if row `b` of the features block and of the hidden block are row `r` of the
  features and of the hidden states, the two weight blocks are the weights transposed, the score vector's block is
  the vector as a column and the biases' blocks are the biases, then row `b` of each of the block's functions is
  row `r` of the array's function. Stated over arbitrary blocks and arrays. -/

section Rows
open Cert.Attn
variable (feat : Feat) (hidden : Hid) (w1 : Mat) (w1b : Row) (w2 : Mat) (w2b : Row) (vw : VRow) (vb : One)
variable (x0 : FVec Ideal S8x2048x256 .f32) (x1 : FVec Ideal S8x256 .f32) (x2 : FVec Ideal S256x256 .bf16)
  (x3 : FVec Ideal S256 .f32) (x4 : FVec Ideal S256x256 .bf16) (x5 : FVec Ideal S256 .f32)
  (x6 : FVec Ideal S256x1 .bf16) (x7 : FVec Ideal S1 .f32)

/-- The block's raw score of row `b` at a position is the arrays' raw score of row `r` there: the same sums term by term. -/
theorem scoreBlk_eq (r : Fin 64) (b : Fin 8)
    (h0 : ∀ p d, x0 (ix3 b p d) = feat (ix3 r p d)) (h1 : ∀ d, x1 (ix2 b d) = hidden (ix2 r d))
    (h2 : ∀ d u, x2 (ix2 d u) = w1 (ix2 u d)) (h3 : ∀ u, x3 (ix1 u) = w1b (ix1 u))
    (h4 : ∀ d u, x4 (ix2 d u) = w2 (ix2 u d)) (h5 : ∀ u, x5 (ix1 u) = w2b (ix1 u))
    (h6 : ∀ u, x6 (ix2 u 0) = vw (ix2 0 u)) (h7 : x7 (ix1 0) = vb (ix1 0)) (p : Fin 2048) :
    scoreBlk x0 x1 x2 x3 x4 x5 x6 x7 b p = score feat hidden w1 w1b w2 w2b vw vb r p := by
  unfold scoreBlk score preAct hidProj
  simp only [h0, h1, h2, h3, h4, h5, h6, h7]

/-- The block's maximal score of row `b` is the arrays' maximal score of row `r`: the same fold of the same scores. -/
theorem maxBlk_eq (r : Fin 64) (b : Fin 8)
    (h0 : ∀ p d, x0 (ix3 b p d) = feat (ix3 r p d)) (h1 : ∀ d, x1 (ix2 b d) = hidden (ix2 r d))
    (h2 : ∀ d u, x2 (ix2 d u) = w1 (ix2 u d)) (h3 : ∀ u, x3 (ix1 u) = w1b (ix1 u))
    (h4 : ∀ d u, x4 (ix2 d u) = w2 (ix2 u d)) (h5 : ∀ u, x5 (ix1 u) = w2b (ix1 u))
    (h6 : ∀ u, x6 (ix2 u 0) = vw (ix2 0 u)) (h7 : x7 (ix1 0) = vb (ix1 0)) :
    maxBlk x0 x1 x2 x3 x4 x5 x6 x7 b = rowMax feat hidden w1 w1b w2 w2b vw vb r := by
  unfold maxBlk rowMax
  simp only [scoreBlk_eq feat hidden w1 w1b w2 w2b vw vb x0 x1 x2 x3 x4 x5 x6 x7 r b h0 h1 h2 h3 h4 h5 h6 h7]

/-- The block's attention weight of row `b` at a position is the arrays' attention weight of row `r` there:
    the same shifted exponential over the same sum of shifted exponentials. -/
theorem attnBlk_eq (r : Fin 64) (b : Fin 8)
    (h0 : ∀ p d, x0 (ix3 b p d) = feat (ix3 r p d)) (h1 : ∀ d, x1 (ix2 b d) = hidden (ix2 r d))
    (h2 : ∀ d u, x2 (ix2 d u) = w1 (ix2 u d)) (h3 : ∀ u, x3 (ix1 u) = w1b (ix1 u))
    (h4 : ∀ d u, x4 (ix2 d u) = w2 (ix2 u d)) (h5 : ∀ u, x5 (ix1 u) = w2b (ix1 u))
    (h6 : ∀ u, x6 (ix2 u 0) = vw (ix2 0 u)) (h7 : x7 (ix1 0) = vb (ix1 0)) (p : Fin 2048) :
    attnBlk x0 x1 x2 x3 x4 x5 x6 x7 b p = attn feat hidden w1 w1b w2 w2b vw vb r p := by
  unfold attnBlk attn denom expo
  simp only [scoreBlk_eq feat hidden w1 w1b w2 w2b vw vb x0 x1 x2 x3 x4 x5 x6 x7 r b h0 h1 h2 h3 h4 h5 h6 h7,
    maxBlk_eq feat hidden w1 w1b w2 w2b vw vb x0 x1 x2 x3 x4 x5 x6 x7 r b h0 h1 h2 h3 h4 h5 h6 h7]

/-- The block's context of row `b` at a feature is the arrays' context of row `r` there: the same weighted sum
    of the same features. -/
theorem ctxBlk_eq (r : Fin 64) (b : Fin 8)
    (h0 : ∀ p d, x0 (ix3 b p d) = feat (ix3 r p d)) (h1 : ∀ d, x1 (ix2 b d) = hidden (ix2 r d))
    (h2 : ∀ d u, x2 (ix2 d u) = w1 (ix2 u d)) (h3 : ∀ u, x3 (ix1 u) = w1b (ix1 u))
    (h4 : ∀ d u, x4 (ix2 d u) = w2 (ix2 u d)) (h5 : ∀ u, x5 (ix1 u) = w2b (ix1 u))
    (h6 : ∀ u, x6 (ix2 u 0) = vw (ix2 0 u)) (h7 : x7 (ix1 0) = vb (ix1 0)) (d : Fin 256) :
    ctxBlk x0 x1 x2 x3 x4 x5 x6 x7 b d = ctx feat hidden w1 w1b w2 w2b vw vb r d := by
  unfold ctxBlk ctx
  simp only [attnBlk_eq feat hidden w1 w1b w2 w2b vw vb x0 x1 x2 x3 x4 x5 x6 x7 r b h0 h1 h2 h3 h4 h5 h6 h7, h0]

end Rows

/-! ## The input blocks at a grid point

  At point `t` the features block and the hidden block are rows 8t .. 8t+7 of their arrays; every other input
  block is its whole array. A block's coordinate on an axis is its block index times the block's extent plus the
  coordinate inside the block. -/

/-- The windows' index maps over the grid: the features, the hidden rows and the two results move with the
    point along the batch axis; every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The features block at point t reads rows 8t .. 8t+7 of the features. -/
theorem blk0_apply (c : Dev nD) (t : Fin cfg0.N) (b : Fin 8) (p : Fin 2048) (d : Fin 256) (r : Fin 64)
    (hr : r.val = 8 * t.val + b.val) :
    (iblk m c 0 t : FVec Ideal S8x2048x256 .f32) (ix3 b p d) = m ((c.tc : Thread nD τ).loc main_arg0) (ix3 r p d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 8 + 1 * b.val = r.val; omega
  | ⟨1, _⟩ => show win0_0.index t (1 : Fin 3) * 2048 + 1 * p.val = p.val; omega
  | ⟨2, _⟩ => show win0_0.index t (2 : Fin 3) * 256 + 1 * d.val = d.val; omega

/-- The hidden block at point t reads rows 8t .. 8t+7 of the hidden states. -/
theorem blk1_apply (c : Dev nD) (t : Fin cfg0.N) (b : Fin 8) (d : Fin 256) (r : Fin 64)
    (hr : r.val = 8 * t.val + b.val) :
    (iblk m c 1 t : FVec Ideal S8x256 .f32) (ix2 b d) = m ((c.tc : Thread nD τ).loc main_arg1) (ix2 r d) := by
  obtain ⟨-, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 8 + 1 * b.val = r.val; omega
  | ⟨1, _⟩ => show win0_1.index t (1 : Fin 2) * 256 + 1 * d.val = d.val; omega

/-- The first weight's block is the whole transposed weight: at (d, u) it reads the argument at (u, d). -/
theorem blk2_apply (c : Dev nD) (t : Fin cfg0.N) (d u : Fin 256) :
    (iblk m c 2 t : FVec Ideal S256x256 .bf16) (ix2 d u) = m ((c.tc : Thread nD τ).loc main_arg2) (ix2 u d) := by
  obtain ⟨-, -, -, -, -, e0, e1, -⟩ := idx_facts t
  unfold iblk
  rw [View.read_apply]
  show V m c main_v1 _ = _
  rw [V_v1]
  refine Eq.trans (congrArg _ (funext fun a => Fin.ext ?_)) (transpose_sq_apply _ d u)
  match a with
  | ⟨0, _⟩ => show win0_2.index t (0 : Fin 2) * 256 + 1 * d.val = d.val; omega
  | ⟨1, _⟩ => show win0_2.index t (1 : Fin 2) * 256 + 1 * u.val = u.val; omega

/-- The first bias's block is the whole bias. -/
theorem blk3_apply (c : Dev nD) (t : Fin cfg0.N) (u : Fin 256) :
    (iblk m c 3 t : FVec Ideal S256 .f32) (ix1 u) = m ((c.tc : Thread nD τ).loc main_arg3) (ix1 u) := by
  obtain ⟨-, -, -, -, -, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 256 + 1 * u.val = u.val; omega

/-- The second weight's block is the whole transposed weight. -/
theorem blk4_apply (c : Dev nD) (t : Fin cfg0.N) (d u : Fin 256) :
    (iblk m c 4 t : FVec Ideal S256x256 .bf16) (ix2 d u) = m ((c.tc : Thread nD τ).loc main_arg4) (ix2 u d) := by
  obtain ⟨-, -, -, -, -, -, -, -, e0, e1, -⟩ := idx_facts t
  unfold iblk
  rw [View.read_apply]
  show V m c main_v3 _ = _
  rw [V_v3]
  refine Eq.trans (congrArg _ (funext fun a => Fin.ext ?_)) (transpose_sq_apply _ d u)
  match a with
  | ⟨0, _⟩ => show win0_4.index t (0 : Fin 2) * 256 + 1 * d.val = d.val; omega
  | ⟨1, _⟩ => show win0_4.index t (1 : Fin 2) * 256 + 1 * u.val = u.val; omega

/-- The second bias's block is the whole bias. -/
theorem blk5_apply (c : Dev nD) (t : Fin cfg0.N) (u : Fin 256) :
    (iblk m c 5 t : FVec Ideal S256 .f32) (ix1 u) = m ((c.tc : Thread nD τ).loc main_arg5) (ix1 u) := by
  obtain ⟨-, -, -, -, -, -, -, -, -, -, e0, -⟩ := idx_facts t
  unfold iblk
  rw [View.read_apply]
  show V m c main_arg5 _ = _
  rw [V_main_arg5]
  refine congrArg _ (funext fun a => Fin.ext ?_)
  match a with
  | ⟨0, _⟩ => show win0_5.index t (0 : Fin 1) * 256 + 1 * u.val = u.val; omega

/-- The score vector's block is the whole vector as a column: at (u, 0) it reads the argument at (0, u). -/
theorem blk6_apply (c : Dev nD) (t : Fin cfg0.N) (u : Fin 256) :
    (iblk m c 6 t : FVec Ideal S256x1 .bf16) (ix2 u 0) = m ((c.tc : Thread nD τ).loc main_arg6) (ix2 0 u) := by
  obtain ⟨-, -, -, -, -, -, -, -, -, -, -, e0, e1, -⟩ := idx_facts t
  unfold iblk
  rw [View.read_apply]
  show V m c main_v5 _ = _
  rw [V_v5]
  refine Eq.trans (congrArg _ (funext fun a => Fin.ext ?_)) (transpose_row_apply _ u)
  match a with
  | ⟨0, _⟩ => show win0_6.index t (0 : Fin 2) * 256 + 1 * u.val = u.val; omega
  | ⟨1, _⟩ => show win0_6.index t (1 : Fin 2) * 1 + 1 * 0 = 0; omega

/-- The score bias's block is the whole bias. -/
theorem blk7_apply (c : Dev nD) (t : Fin cfg0.N) :
    (iblk m c 7 t : FVec Ideal S1 .f32) (ix1 0) = m ((c.tc : Thread nD τ).loc main_arg7) (ix1 0) := by
  obtain ⟨-, -, -, -, -, -, -, -, -, -, -, -, -, e0, -⟩ := idx_facts t
  unfold iblk
  rw [View.read_apply]
  show V m c main_arg7 _ = _
  rw [V_main_arg7]
  refine congrArg _ (funext fun a => Fin.ext ?_)
  match a with
  | ⟨0, _⟩ => show win0_7.index t (0 : Fin 1) * 1 + 1 * 0 = 0; omega

/-! ## What each point writes back, and the two arrays after the last point -/

/-- The attention array [64, 2048] of the arguments on core c. -/
abbrev attnArr (c : Dev nD) : S64x2048.Idx → EReal := fun i =>
  Cert.Attn.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1)

/-- The context array [64, 256] of the arguments on core c. -/
abbrev ctxArr (c : Dev nD) : S64x256.Idx → EReal :=
  Cert.Attn.ctxOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- What point t writes back to the attention array is block t of the attention of the arguments. -/
theorem flushed9_eq (c : Dev nD) (t : Fin cfg0.N) :
    (GenP.dats m 0 c).flushed 9 t = ((cfg0.win 9).blk t).view.read (Elt Ideal) (attnArr m c) := by
  show (cfg0.win 9).cut (grid0.coords t) ((GenP.dats m 0 c).after 9 t) = _
  rw [GenP.after0_9]
  refine funext fun (j : S8x2048.Idx) => ?_
  obtain ⟨b, p, rfl⟩ : ∃ b p, j = ix2 b p := ⟨j 0, j 1, eq_ix2 j⟩
  show (GenP.outsAt0 m c t).2 (ix2 b p) = attnArr m c (((cfg0.win 9).blk t).view.emb (ix2 b p))
  have hN : grid0.N = 8 := N_0
  have ht : t.val < 8 := hN ▸ t.isLt
  obtain ⟨-, -, -, -, -, -, -, -, -, -, -, -, -, -, -, -, e0, e1⟩ := idx_facts t
  have hr : 8 * t.val + b.val < 64 := by have := b.isLt; omega
  unfold GenP.outsAt0
  dsimp only
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) b p).trans ?_
  have h := attnBlk_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (iblk m c 0 t) (iblk m c 1 t) (iblk m c 2 t) (iblk m c 3 t) (iblk m c 4 t) (iblk m c 5 t) (iblk m c 6 t) (iblk m c 7 t) ⟨8 * t.val + b.val, hr⟩ b
    (fun p d => blk0_apply m c t b p d ⟨8 * t.val + b.val, hr⟩ rfl) (fun d => blk1_apply m c t b d ⟨8 * t.val + b.val, hr⟩ rfl) (fun d u => blk2_apply m c t d u)
    (fun u => blk3_apply m c t u) (fun d u => blk4_apply m c t d u) (fun u => blk5_apply m c t u)
    (fun u => blk6_apply m c t u) (blk7_apply m c t) p
  refine h.trans ?_
  have ea : (((cfg0.win 9).blk t).view.emb (ix2 b p)) (0 : Fin 2) = (⟨8 * t.val + b.val, hr⟩ : Fin 64) :=
    Fin.ext (by show win0_9.index t (0 : Fin 2) * 8 + 1 * b.val = 8 * t.val + b.val; omega)
  have eb : (((cfg0.win 9).blk t).view.emb (ix2 b p)) (1 : Fin 2) = p :=
    Fin.ext (by show win0_9.index t (1 : Fin 2) * 2048 + 1 * p.val = p.val; omega)
  exact congrArg₂ (Cert.Attn.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ea.symm eb.symm

/-- What point t writes back to the context array is block t of the context of the arguments. -/
theorem flushed8_eq (c : Dev nD) (t : Fin cfg0.N) :
    (GenP.dats m 0 c).flushed 8 t = ((cfg0.win 8).blk t).view.read (Elt Ideal) (ctxArr m c) := by
  show (cfg0.win 8).cut (grid0.coords t) ((GenP.dats m 0 c).after 8 t) = _
  rw [GenP.after0_8]
  refine funext fun (j : S8x256.Idx) => ?_
  obtain ⟨b, d, rfl⟩ : ∃ b d, j = ix2 b d := ⟨j 0, j 1, eq_ix2 j⟩
  show (GenP.outsAt0 m c t).1 (ix2 b d) = ctxArr m c (((cfg0.win 8).blk t).view.emb (ix2 b d))
  have hN : grid0.N = 8 := N_0
  have ht : t.val < 8 := hN ▸ t.isLt
  obtain ⟨-, -, -, -, -, -, -, -, -, -, -, -, -, -, e0, e1, -⟩ := idx_facts t
  have hr : 8 * t.val + b.val < 64 := by have := b.isLt; omega
  unfold GenP.outsAt0
  dsimp only
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) b d).trans ?_
  have h := ctxBlk_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (iblk m c 0 t) (iblk m c 1 t) (iblk m c 2 t) (iblk m c 3 t) (iblk m c 4 t) (iblk m c 5 t) (iblk m c 6 t) (iblk m c 7 t) ⟨8 * t.val + b.val, hr⟩ b
    (fun p d => blk0_apply m c t b p d ⟨8 * t.val + b.val, hr⟩ rfl) (fun d => blk1_apply m c t b d ⟨8 * t.val + b.val, hr⟩ rfl) (fun d u => blk2_apply m c t d u)
    (fun u => blk3_apply m c t u) (fun d u => blk4_apply m c t d u) (fun u => blk5_apply m c t u)
    (fun u => blk6_apply m c t u) (blk7_apply m c t) d
  refine h.trans ?_
  have ea : (((cfg0.win 8).blk t).view.emb (ix2 b d)) (0 : Fin 2) = (⟨8 * t.val + b.val, hr⟩ : Fin 64) :=
    Fin.ext (by show win0_8.index t (0 : Fin 2) * 8 + 1 * b.val = 8 * t.val + b.val; omega)
  have eb : (((cfg0.win 8).blk t).view.emb (ix2 b d)) (1 : Fin 2) = d :=
    Fin.ext (by show win0_8.index t (1 : Fin 2) * 256 + 1 * d.val = d.val; omega)
  exact congrArg₂ (Cert.Attn.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ea.symm eb.symm

/-! ## The blocks of the eight points cover the two arrays -/

/-- An index of the attention array is in point t's block iff each coordinate is in the block's range on its axis. -/
theorem mem_blk9 (t : Fin cfg0.N) (i : S64x2048.Idx) :
    i ∈ ((cfg0.win 9).blk t).view.set ↔ ∀ a : Fin 2, win0_9.index t a * S8x2048.size a ≤ (i a).val ∧ (i a).val < win0_9.index t a * S8x2048.size a + S8x2048.size a := by
  show i ∈ ((View.whole main_v6_1).slice (win0_9.rect t)).set ↔ _
  rw [View.set_slice_whole, Rect.mem_set_unit]
  exact Iff.rfl

/-- An index of the context array is in point t's block iff each coordinate is in the block's range on its axis. -/
theorem mem_blk8 (t : Fin cfg0.N) (i : S64x256.Idx) :
    i ∈ ((cfg0.win 8).blk t).view.set ↔ ∀ a : Fin 2, win0_8.index t a * S8x256.size a ≤ (i a).val ∧ (i a).val < win0_8.index t a * S8x256.size a + S8x256.size a := by
  show i ∈ ((View.whole main_v6_0).slice (win0_8.rect t)).set ↔ _
  rw [View.set_slice_whole, Rect.mem_set_unit]
  exact Iff.rfl

/-- Every index of the attention array is in the block of the point its row falls in: row r is point r / 8's. -/
theorem cover9 (i : S64x2048.Idx) :
    ∃ t : Fin cfg0.N, (cfg0.win 9).flush t = true ∧ i ∈ ((cfg0.win 9).blk t).view.set := by
  have hi0 : (i 0).val < 64 := (i 0).isLt
  have hi1 : (i 1).val < 2048 := (i 1).isLt
  have hN : grid0.N = 8 := N_0
  obtain ⟨t, ht⟩ : ∃ t : Fin cfg0.N, t.val = (i 0).val / 8 := ⟨⟨(i 0).val / 8, by show _ < grid0.N; omega⟩, rfl⟩
  obtain ⟨-, -, -, -, -, -, -, -, -, -, -, -, -, -, -, -, e0, e1⟩ := idx_facts t
  refine ⟨t, flush0_9 t, ?_⟩
  rw [mem_blk9]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 2048 ≤ (i 1).val ∧ (i 1).val < win0_9.index t (1 : Fin 2) * 2048 + 2048; omega

/-- Every index of the context array is in the block of the point its row falls in. -/
theorem cover8 (i : S64x256.Idx) :
    ∃ t : Fin cfg0.N, (cfg0.win 8).flush t = true ∧ i ∈ ((cfg0.win 8).blk t).view.set := by
  have hi0 : (i 0).val < 64 := (i 0).isLt
  have hi1 : (i 1).val < 256 := (i 1).isLt
  have hN : grid0.N = 8 := N_0
  obtain ⟨t, ht⟩ : ∃ t : Fin cfg0.N, t.val = (i 0).val / 8 := ⟨⟨(i 0).val / 8, by show _ < grid0.N; omega⟩, rfl⟩
  obtain ⟨-, -, -, -, -, -, -, -, -, -, -, -, -, -, e0, e1, -⟩ := idx_facts t
  refine ⟨t, flush0_8 t, ?_⟩
  rw [mem_blk8]
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 256 ≤ (i 1).val ∧ (i 1).val < win0_8.index t (1 : Fin 2) * 256 + 256; omega

/-- The attention array after the run is the attention of the arguments. -/
theorem final9 (c : Dev nD) : (GenP.dats m 0 c).arrAt 9 cfg0.N = attnArr m c :=
  (GenP.dats m 0 c).arrAt_eq_of_cover 9 (attnArr m c) (fun t _ => flushed9_eq m c t) cover9

/-- The context array after the run is the context of the arguments. -/
theorem final8 (c : Dev nD) : (GenP.dats m 0 c).arrAt 8 cfg0.N = ctxArr m c :=
  (GenP.dats m 0 c).arrAt_eq_of_cover 8 (ctxArr m c) (fun t _ => flushed8_eq m c t) cover8

/-! ## The host's last operation, and the run -/

/-- The host's broadcast to [64, 2048, 1] read at an index: the operand at the first two coordinates. -/
theorem bcast_apply (x : S64x2048.Idx → EReal) (j : S64x2048x1.Idx) :
    broadcastInDim S64x2048x1 ![0, 1] bcast_S64x2048_S64x2048x1_0_1 x j = x (ix2 (j 0) (j 1)) :=
  broadcastInDim_apply ![0, 1] bcast_S64x2048_S64x2048x1_0_1 x j (ix2 (j 0) (j 1)) fun a => by
    match a with
    | ⟨0, _⟩ => rfl
    | ⟨1, _⟩ => rfl

/-- The attention result [64, 2048, 1] after the host's last operation: the attention array with a unit axis appended. -/
theorem tail_v7 (c : Dev nD) :
    (Pipeline.afterTail₀ cfgs (GenP.dats m) 0 (V0 m) [hostOps1] c main_v7 : S64x2048x1.Idx → EReal) = Cert.Attn.attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v7) = _
  after_results
  have e : Pipeline.withArrays (cfgs 0).spec c (V0 m c) (fun w => (GenP.dats m 0 c).arrAt w (cfgs 0).N) (Proc.devRef .tc main_v6_1) = attnArr m c :=
    (Pipeline.withArrays_arr spec0 launch0.win.arr_inj c _ _ 9).trans (final9 m c)
  refine (congrArg (broadcastInDim S64x2048x1 ![0, 1] bcast_S64x2048_S64x2048x1_0_1) e).trans ?_
  funext j
  refine (bcast_apply (attnArr m c) j).trans ?_
  unfold Cert.Attn.attnOut
  rfl

/-- Every weakly fair execution of the idealized kernel program terminates with the context result at
    `ctxOut` and the attention result at `attnOut` of the argument arrays, the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v6_0) = Cert.Attn.ctxOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v7) = Cert.Attn.attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 8).trans (final8 m c),
      ((h c).2 main_v7 (Pipeline.mem_restRefs_of main_v7 (by decide) (by decide))).trans (tail_v7 m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c))),
      (((h c).2 main_arg2 (Pipeline.mem_restRefs_of main_arg2 (by decide) (by decide))).trans (W_main_arg2 m (GenP.dats m) c)),
      ((h c).1 3).trans (((GenP.dats m 0 c).arrAt_in 3 rfl _).trans ((GenP.A_eq m c 3).trans (V_main_arg3 m c))),
      (((h c).2 main_arg4 (Pipeline.mem_restRefs_of main_arg4 (by decide) (by decide))).trans (W_main_arg4 m (GenP.dats m) c)),
      ((h c).1 5).trans (((GenP.dats m 0 c).arrAt_in 5 rfl _).trans ((GenP.A_eq m c 5).trans (V_main_arg5 m c))),
      (((h c).2 main_arg6 (Pipeline.mem_restRefs_of main_arg6 (by decide) (by decide))).trans (W_main_arg6 m (GenP.dats m) c)),
      ((h c).1 7).trans (((GenP.dats m 0 c).arrAt_in 7 rfl _).trans ((GenP.A_eq m c 7).trans (V_main_arg7 m c)))⟩)
    (GenP.run_main m ρ)

end Cert.KernelIdeal.ArrayValue

end
-- ==== Proof.lean ====
/-
  Additive (Bahdanau) attention: a TPU kernel against its jnp reference, equal over the extended reals.

  For features [64, 2048, 256], a hidden state [64, 256], two dense layers (w1, w1b), (w2, w2b) and a score
  vector (v, vb), both programs compute, per batch row b,
      score b t = Σ_u tanh (Σ_d feat[b,t,d]·w1[u,d] + w1b[u] + Σ_d hidden[b,d]·w2[u,d] + w2b[u]) · v[0,u] + vb[0],
      attn b t  = exp (score b t - max_t score b ·) / Σ_t exp (score b t - max_t score b ·),
      ctx b d   = Σ_t attn b t · feat[b,t,d],
  and return ctx [64, 256] and attn [64, 2048, 1] (proof/Proof/Spec.lean states these as ONE function of the
  eight argument arrays).

  The kernel runs a grid of 8 points, 8 batch rows each. At a point it first fills a score buffer [8, 2048]
  chunk by chunk (8 chunks of 256 positions, a counted loop), then takes the row softmax of the whole buffer
  and stores it as the attention block, then accumulates the context chunk by chunk from zero (a second
  counted loop that reads the attention block back). It adds the biases as proj + (w1b + hid) where the
  reference adds (proj + w1b) + hid, takes its maximum and its sums over a row in one reduction where the
  reference folds from the same initial words, and sums the context in 8 partial sums of 256 positions
  where the reference sums over all 2048 at once. On the extended reals addition is associative and
  commutative, so none of this changes a value: no finiteness of the inputs is used.

  How the proof goes. The reference's two results are read one operation at a time (the generated run and
  its read-at-an-index lemmas) and shown to be the specification (Proof/RefValue.lean). The kernel's frame is
  the generated frame certificate (Proof/KernelIdealFrame.lean and Proof/KernelFrame.lean, over the runs
  Proof/KernelIdealRunA.lean and Proof/KernelRunA.lean). What a grid point leaves in the two output blocks is read off
  that run: each loop's trip writes one piece (Proof/TripPieces.lean); by induction over the trips the score
  buffer is one function of the features block whatever it held before (Proof/ScoreLoop.lean) and the
  accumulator is an eight-fold recursion (Proof/CtxLoop.lean); with the body's four stored values read at an
  index (Proof/PayValue.lean) the blocks are the softmax and the weighted sum of the point's input blocks
  (Proof/BlockValue.lean). The blocks of the 8 points tile the two result arrays, the host's transposes
  before the call and its appended unit axis after it are read at an index, and the whole run is re-posted
  with both results at the specification (Proof/ArrayValue.lean). The idealization rewrote no operation, so
  `preserves` is `True`.
-/
import proofs.«415179_j73091753443736_3_alg».proof.Defs
import proofs.«415179_j73091753443736_3_alg».proof.Proof.Gen.Kernel
import proofs.«415179_j73091753443736_3_alg».proof.Proof.Gen.KernelIdeal
import proofs.«415179_j73091753443736_3_alg».proof.Proof.Gen.ReferenceIdeal
import proofs.«415179_j73091753443736_3_alg».proof.Proof.Gen.Pre_finite_inputs
import proofs.«415179_j73091753443736_3_alg».proof.Proof.KernelFrame
import proofs.«415179_j73091753443736_3_alg».proof.Proof.KernelIdealFrame
import proofs.«415179_j73091753443736_3_alg».proof.Proof.Gen.ReferenceIdeal.Run
import proofs.«415179_j73091753443736_3_alg».proof.Proof.Gen.ReferenceIdeal.Read
import proofs.«415179_j73091753443736_3_alg».proof.Proof.RefValue
import proofs.«415179_j73091753443736_3_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.GenP.frame m ρ

/-- The idealized kernel program runs and leaves its arguments unchanged. -/
theorem frame_kernelIdeal : Cert.frame_KernelIdeal := fun m ρ _ => Cert.KernelIdeal.GenP.frame m ρ

/-- The reference is a host program: its run, with the two results dropped, is its frame. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eight arguments, the kernel ends with the context at `ctxOut` and the
    attention at `attnOut` of its arguments, and the reference with its two results at the same functions
    of its own arguments, which are the kernel's. -/
theorem algebraic : Cert.algebraic_KernelIdeal_ReferenceIdeal := by
  intro m ρ m' ρ' _ hagree
  refine ⟨_, _, Cert.KernelIdeal.ArrayValue.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v29_eq, Cert.ReferenceIdeal.RefValue.ctx_eq, (hagree c).1, (hagree c).2.1, (hagree c).2.2.1, (hagree c).2.2.2.1, (hagree c).2.2.2.2.1, (hagree c).2.2.2.2.2.1, (hagree c).2.2.2.2.2.2.1, (hagree c).2.2.2.2.2.2.2]
  · rw [(h c).2.1, Cert.ReferenceIdeal.Read.val_main_v26_eq, Cert.ReferenceIdeal.RefValue.attn_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
